-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel

variable [Facts]

def fn {F : FTy → Type} [FloatOps F] (main_arg0 : FVec F S32x512x64x64 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  main_v3
-- ==== Kernel.lean ====
abbrev S32x512x64x64 : Shape := ⟨4, ![32, 512, 64, 64]⟩
abbrev S32x512 : Shape := ⟨2, ![32, 512]⟩
abbrev S8x128x16x64 : Shape := ⟨4, ![8, 128, 16, 64]⟩
abbrev S8x128 : Shape := ⟨2, ![8, 128]⟩
abbrev S32x1024 : Shape := ⟨2, ![32, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S32x512, .f32⟩
  | .hbm, ⟨3, _⟩ => ⟨S32x1024, .f32⟩
  | .local _ .vmem, ⟨0, _⟩ => ⟨S8x128x16x64, .f32⟩
  | .local _ .vmem, ⟨1, _⟩ => ⟨S8x128x16x64, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x16x64_S8x128x16x64_0_0_0_0 : ∀ a, (![0, 0, 0, 0] : Fin 4 → Nat) a + S8x128x16x64.size a ≤ S8x128x16x64.size a
  h_S8x128x16x64 : 0 < S8x128x16x64.numel
  reduces_S8x128x16x64_S8x128 : S8x128x16x64.Reduces [2, 3] S8x128
  concatenates_S32x512_S32x512_S32x1024_d1 : Shape.Concatenates [S32x512, S32x512] S32x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x64.size a ≤ S32x512x64x64.size a
  hwx0_0 : ∀ i : grid0.Coords, EltTy.bits .f32 = 32 ∨ (Rect.block (s := S32x512x64x64) S8x128x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x512.size a
  hwx0_2 : ∀ i : grid0.Coords, EltTy.bits .f32 = 32 ∨ (Rect.block (s := S32x512) S8x128.size (cc0_transform_2 i) (hinb0_2 i)).WholeWords (EltTy.packing .f32)

variable [Facts₀]

abbrev win0_0 : Pipeline.Window sig grid0 :=
  Pipeline.Window.ofSpec (Memref.whole main_arg0) S8x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x512x64x64 : Shape := ⟨4, ![32, 512, 64, 64]⟩
abbrev S_ : Shape := ⟨0, ![]⟩
abbrev S32x512 : Shape := ⟨2, ![32, 512]⟩
abbrev S32x512x1x1 : Shape := ⟨4, ![32, 512, 1, 1]⟩
abbrev S32x1024 : Shape := ⟨2, ![32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S_, .f32⟩
  | .hbm, ⟨2, _⟩ => ⟨S32x512, .f32⟩
  | .hbm, ⟨3, _⟩ => ⟨S_, .f32⟩
  | .hbm, ⟨4, _⟩ => ⟨S32x512, .f32⟩
  | .hbm, ⟨5, _⟩ => ⟨S32x512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S32x512x1x1, .f32⟩
  | .hbm, ⟨10, _⟩ => ⟨S_, .f32⟩
  | .hbm, ⟨11, _⟩ => ⟨S32x512x1x1, .f32⟩
  | .hbm, ⟨12, _⟩ => ⟨S32x512x1x1, .f32⟩
  | .hbm, ⟨13, _⟩ => ⟨S32x512x64x64, .f32⟩
  | .hbm, ⟨14, _⟩ => ⟨S32x512x64x64, .f32⟩
  | .hbm, ⟨15, _⟩ => ⟨S32x512x64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S32x1024, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S32x512_S32x512x1x1_0_1 : S32x512.BroadcastsInDim S32x512x1x1 (![0, 1] : Fin 2 → Fin S32x512x1x1.rank)
  bcast_S_S32x512x1x1 : S_.BroadcastsInDim S32x512x1x1 (![] : Fin 0 → Fin S32x512x1x1.rank)
  bcast_S32x512x1x1_S32x512x64x64_0_1_2_3 : S32x512x1x1.BroadcastsInDim S32x512x64x64 (![0, 1, 2, 3] : Fin 4 → Fin S32x512x64x64.rank)
  concatenates_S32x512_S32x512_S32x1024_d1 : Shape.Concatenates [S32x512, S32x512] S32x1024 1

variable [Facts₀]

class Facts : Prop extends Facts₀ where

variable [Facts]
-- ==== Proof.KPieces.lean ====
/-
  What each control case of the kernel body leaves behind, as a pure function of what it loaded.

  The body runs in one of three cases by the position `h` of the point along the reduction axis. At `h = 0` it stores
  the zero block into both running sums, reads it back and adds the block's sums (the sum of the block over its last
  two axes, and the sum of its squares). At `h = 1, 2` it adds the block's sums to what the point before left. At
  `h = 3` it does the same and then stores the mean and the standard deviation computed from the two running sums.
  Each store covers its whole buffer, so what a buffer holds afterwards is the last store's payload.
-/
import proofs.«110391_j13494787244486_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem sA0 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : cond0_0 i) (hc1 : ¬cond0_1 i) (x0 : Vec F S8x128x16x64 .f32) :
    sout0_A_0 c i arg3 harg3 arg4 harg4 arg5 harg5 arg6 harg6 arg7 harg7 hc0 hc1 x0 = k0_pay3 x0 k0_pay1 := by
  unfold sout0_A_0
  rw [View.read_writes_eq_canon _ _ _ (scover0_A_0 c i arg3 harg3 arg4 harg4 arg5 harg5 arg6 harg6 arg7 harg7 hc0 hc1 x0)]
  unfold kernelRun0_A
  dsimp only
  sl_unfold_words
  rw [View.canon_cons_unit_zero (S := S8x128) hz2, View.readCov_unit_zero (S := S8x128) _ hz2]
  simp only [View.readAt_eq_ld, harg3.read_unread, harg4.read_unread, harg5.read_unread, harg6.read_unread, harg7.read_unread,
    View.ld_unit_zero (S := S8x128x16x64) hz4, View.ld_unit_zero (S := S8x128) hz2]

theorem sA1 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : cond0_0 i) (hc1 : ¬cond0_1 i) (x0 : Vec F S8x128x16x64 .f32) :
    sout0_A_1 c i arg3 harg3 arg4 harg4 arg5 harg5 arg6 harg6 arg7 harg7 hc0 hc1 x0 = k0_pay4 x0 k0_pay2 := by
  unfold sout0_A_1
  rw [View.read_writes_eq_canon _ _ _ (scover0_A_1 c i arg3 harg3 arg4 harg4 arg5 harg5 arg6 harg6 arg7 harg7 hc0 hc1 x0)]
  unfold kernelRun0_A
  dsimp only
  sl_unfold_words
  rw [View.canon_cons_unit_zero (S := S8x128) hz2, View.readCov_unit_zero (S := S8x128) _ hz2]
  simp only [View.readAt_eq_ld, harg3.read_unread, harg4.read_unread, harg5.read_unread, harg6.read_unread, harg7.read_unread,
    View.ld_unit_zero (S := S8x128x16x64) hz4, View.ld_unit_zero (S := S8x128) hz2]

theorem sB0 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : ¬cond0_1 i) (x0 : Vec F S8x128x16x64 .f32) (xs0 xs1 : Vec F S8x128 .f32) :
    sout0_B_0 c i arg3 harg3 arg4 harg4 arg5 harg5 arg6 harg6 arg7 harg7 hc0 hc1 x0 xs0 xs1 = k0_pay3 x0 xs0 := by
  unfold sout0_B_0
  rw [View.read_writes_eq_canon _ _ _ (scover0_B_0 c i arg3 harg3 arg4 harg4 arg5 harg5 arg6 harg6 arg7 harg7 hc0 hc1 x0 xs0 xs1)]
  unfold kernelRun0_B
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2]

theorem sB1 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : ¬cond0_1 i) (x0 : Vec F S8x128x16x64 .f32) (xs0 xs1 : Vec F S8x128 .f32) :
    sout0_B_1 c i arg3 harg3 arg4 harg4 arg5 harg5 arg6 harg6 arg7 harg7 hc0 hc1 x0 xs0 xs1 = k0_pay4 x0 xs1 := by
  unfold sout0_B_1
  rw [View.read_writes_eq_canon _ _ _ (scover0_B_1 c i arg3 harg3 arg4 harg4 arg5 harg5 arg6 harg6 arg7 harg7 hc0 hc1 x0 xs0 xs1)]
  unfold kernelRun0_B
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2]

theorem sC0 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : cond0_1 i) (x0 : Vec F S8x128x16x64 .f32) (xs0 xs1 : Vec F S8x128 .f32) :
    sout0_C_0 c i arg3 harg3 arg4 harg4 arg5 harg5 arg6 harg6 arg7 harg7 hc0 hc1 x0 xs0 xs1 = k0_pay3 x0 xs0 := by
  unfold sout0_C_0
  rw [View.read_writes_eq_canon _ _ _ (scover0_C_0 c i arg3 harg3 arg4 harg4 arg5 harg5 arg6 harg6 arg7 harg7 hc0 hc1 x0 xs0 xs1)]
  unfold kernelRun0_C
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2]

theorem sC1 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : cond0_1 i) (x0 : Vec F S8x128x16x64 .f32) (xs0 xs1 : Vec F S8x128 .f32) :
    sout0_C_1 c i arg3 harg3 arg4 harg4 arg5 harg5 arg6 harg6 arg7 harg7 hc0 hc1 x0 xs0 xs1 = k0_pay4 x0 xs1 := by
  unfold sout0_C_1
  rw [View.read_writes_eq_canon _ _ _ (scover0_C_1 c i arg3 harg3 arg4 harg4 arg5 harg5 arg6 harg6 arg7 harg7 hc0 hc1 x0 xs0 xs1)]
  unfold kernelRun0_C
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2]

theorem oC1 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : cond0_1 i) (x0 : Vec F S8x128x16x64 .f32) (xs0 xs1 : Vec F S8x128 .f32) :
    out0_C_1 c i arg3 harg3 arg4 harg4 arg5 harg5 arg6 harg6 arg7 harg7 hc0 hc1 x0 xs0 xs1 = k0_pay5 (k0_pay3 x0 xs0) := by
  unfold out0_C_1
  rw [View.read_writes_eq_canon _ _ _ (cover0_C_1 c i arg3 harg3 arg4 harg4 arg5 harg5 arg6 harg6 arg7 harg7 hc0 hc1 x0 xs0 xs1)]
  unfold kernelRun0_C
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2, View.readCov_unit_zero (S := S8x128) _ hz2]

theorem oC2 (c : Dev nD) (i : grid0.Coords) (arg3 : Memref sig .tc .vmem S8x128x16x64 .f32) (harg3 : arg3.IsWhole)
    (arg4 : Memref sig .tc .vmem S8x128 .f32) (harg4 : arg4.IsWhole) (arg5 : Memref sig .tc .vmem S8x128 .f32) (harg5 : arg5.IsWhole)
    (arg6 : Memref sig .tc .vmem S8x128 .f32) (harg6 : arg6.IsWhole) (arg7 : Memref sig .tc .vmem S8x128 .f32) (harg7 : arg7.IsWhole)
    (hc0 : ¬cond0_0 i) (hc1 : cond0_1 i) (x0 : Vec F S8x128x16x64 .f32) (xs0 xs1 : Vec F S8x128 .f32) :
    out0_C_2 c i arg3 harg3 arg4 harg4 arg5 harg5 arg6 harg6 arg7 harg7 hc0 hc1 x0 xs0 xs1 = k0_pay6 (k0_pay3 x0 xs0) (k0_pay4 x0 xs1) := by
  unfold out0_C_2
  rw [View.read_writes_eq_canon _ _ _ (cover0_C_2 c i arg3 harg3 arg4 harg4 arg5 harg5 arg6 harg6 arg7 harg7 hc0 hc1 x0 xs0 xs1)]
  unfold kernelRun0_C
  dsimp only
  sl_unfold_words
  rw [View.canon_unit_zero hz2]
  simp only [View.readAt_eq_ld, harg3.read_unread, harg4.read_unread, harg5.read_unread, harg6.read_unread, harg7.read_unread,
    View.ld_unit_zero (S := S8x128x16x64) hz4, View.ld_unit_zero (S := S8x128) hz2, View.readCov_unit_zero (S := S8x128) _ hz2]

end Cert.KernelIdeal.KVal
end
-- ==== Proof.KSteps.lean ====
/-
  The running sums point by point.

  Points are numbered along the grid with the reduction axis innermost, so the four points `n, n+1, n+2, n+3` with
  `n ≡ 0 (mod 4)` visit the four row blocks of one tile of channels. After point `n` the first running sum holds the
  zero block plus the block's sums; after each later point it holds what the point before left plus that point's block
  sums; the second running sum likewise with squares. At `n + 3` the two outputs hold the mean and the standard
  deviation computed from the two sums of all four blocks.
-/
import proofs.«110391_j13494787244486_1_alg».proof.Proof.KPieces

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The input block the body loads at point `t`, at its literal shape. -/
abbrev xblk (c : Dev nD) (t : Fin cfg0.N) : Vec F S8x128x16x64 .f32 := iblk m c 0 t

/-- First point of a tile (`n ≡ 0`): both running sums restart from the zero block. -/
theorem step_first (c : Dev nD) (n : ℕ) (hn : n < cfg0.N) (h0 : n % 4 = 0) :
    (outsAt0 m c n hn).2.2.1 = k0_pay3 (xblk m c ⟨n, hn⟩) k0_pay1
    ∧ (outsAt0 m c n hn).2.2.2 = k0_pay4 (xblk m c ⟨n, hn⟩) k0_pay2 := by
  have h1 : ¬n % 4 = 3 := by omega
  rw [outsAt0_A m c ⟨n, hn⟩ h0 h1]
  dsimp only
  exact ⟨sA0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) _ _ (iblk m c 0 ⟨n, hn⟩), sA1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) _ _ (iblk m c 0 ⟨n, hn⟩)⟩

/-- A middle point (`n + 1 ≡ 1, 2`): each running sum is what the point before left plus this block's sums. -/
theorem step_mid (c : Dev nD) (n : ℕ) (hn : n + 1 < cfg0.N) (h0 : ¬(n + 1) % 4 = 0) (h1 : ¬(n + 1) % 4 = 3) :
    (outsAt0 m c (n + 1) hn).2.2.1 = k0_pay3 (xblk m c ⟨n + 1, hn⟩) (outsAt0 m c n (Nat.lt_of_succ_lt hn)).2.2.1
    ∧ (outsAt0 m c (n + 1) hn).2.2.2 = k0_pay4 (xblk m c ⟨n + 1, hn⟩) (outsAt0 m c n (Nat.lt_of_succ_lt hn)).2.2.2 := by
  rw [outsAt0_B m c ⟨n + 1, hn⟩ h0 h1]
  dsimp only
  exact ⟨sB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) _ _ (iblk m c 0 ⟨n + 1, hn⟩) _ _, sB1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) _ _ (iblk m c 0 ⟨n + 1, hn⟩) _ _⟩

/-- The last point of a tile (`n + 1 ≡ 3`): the sums advance once more and the two outputs are computed from them. -/
theorem step_last (c : Dev nD) (n : ℕ) (hn : n + 1 < cfg0.N) (h1 : (n + 1) % 4 = 3) :
    (outsAt0 m c (n + 1) hn).1
        = k0_pay5 (k0_pay3 (xblk m c ⟨n + 1, hn⟩) (outsAt0 m c n (Nat.lt_of_succ_lt hn)).2.2.1)
    ∧ (outsAt0 m c (n + 1) hn).2.1
        = k0_pay6 (k0_pay3 (xblk m c ⟨n + 1, hn⟩) (outsAt0 m c n (Nat.lt_of_succ_lt hn)).2.2.1)
            (k0_pay4 (xblk m c ⟨n + 1, hn⟩) (outsAt0 m c n (Nat.lt_of_succ_lt hn)).2.2.2) := by
  have h0 : ¬(n + 1) % 4 = 0 := by omega
  rw [outsAt0_C m c ⟨n + 1, hn⟩ h0 h1]
  dsimp only
  exact ⟨oC1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) _ _ (iblk m c 0 ⟨n + 1, hn⟩) _ _, oC2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) _ _ (iblk m c 0 ⟨n + 1, hn⟩) _ _⟩

/-- The sum of the four blocks of a tile, in point order from the zero block. -/
def tileSum (c : Dev nD) (n : ℕ) (hn : n + 3 < cfg0.N) : FVec F S8x128 .f32 :=
  k0_pay3 (xblk m c ⟨n + 3, hn⟩)
    (k0_pay3 (xblk m c ⟨n + 2, Nat.lt_of_succ_lt hn⟩)
      (k0_pay3 (xblk m c ⟨n + 1, Nat.lt_of_succ_lt (Nat.lt_of_succ_lt hn)⟩)
        (k0_pay3 (xblk m c ⟨n, Nat.lt_of_succ_lt (Nat.lt_of_succ_lt (Nat.lt_of_succ_lt hn))⟩) k0_pay1)))

/-- The sum of the squares of the four blocks of a tile, in point order from the zero block. -/
def tileSumSq (c : Dev nD) (n : ℕ) (hn : n + 3 < cfg0.N) : FVec F S8x128 .f32 :=
  k0_pay4 (xblk m c ⟨n + 3, hn⟩)
    (k0_pay4 (xblk m c ⟨n + 2, Nat.lt_of_succ_lt hn⟩)
      (k0_pay4 (xblk m c ⟨n + 1, Nat.lt_of_succ_lt (Nat.lt_of_succ_lt hn)⟩)
        (k0_pay4 (xblk m c ⟨n, Nat.lt_of_succ_lt (Nat.lt_of_succ_lt (Nat.lt_of_succ_lt hn))⟩) k0_pay2)))

/-- What the two outputs hold after the last point `n + 3` of a tile that starts at `n ≡ 0`. -/
theorem outs_at_last (c : Dev nD) (n : ℕ) (hn : n + 3 < cfg0.N) (h0 : n % 4 = 0) :
    (outsAt0 m c (n + 3) hn).1 = k0_pay5 (tileSum m c n hn)
    ∧ (outsAt0 m c (n + 3) hn).2.1 = k0_pay6 (tileSum m c n hn) (tileSumSq m c n hn) := by
  have h2 := Nat.lt_of_succ_lt hn
  have h1 := Nat.lt_of_succ_lt h2
  have hz := Nat.lt_of_succ_lt h1
  obtain ⟨a0, b0⟩ := step_first m c n hz h0
  obtain ⟨a1, b1⟩ := step_mid m c n h1 (by omega) (by omega)
  obtain ⟨a2, b2⟩ := step_mid m c (n + 1) h2 (by omega) (by omega)
  obtain ⟨a3, b3⟩ := step_last m c (n + 2) hn (by omega)
  rw [a2, a1, a0] at a3 b3
  rw [b2, b1, b0] at b3
  exact ⟨a3, b3⟩

end Cert.KernelIdeal.KVal

end
-- ==== Proof.KBlocks.lean ====
/-
  Where a block's element sits in its array.

  The 64 grid points are numbered `t = 16·i + 4·j + h` with `(i, j)` the tile of eight batches and 128 channels and
  `h` the block of sixteen rows. The input block at `t` is rows `16·h … 16·h + 15` of the channels of tile `(i, j)`:
  its element `(r, l, a, w)` is the array's element `(8·i + r, 128·j + l, 16·h + a, w)`. Each output block at `t` is
  tile `(i, j)` of its [32, 512] array.
-/
import proofs.«110391_j13494787244486_1_alg».proof.Proof.KSteps
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The printed index maps at point `t`, decided over the grid. -/
theorem idx_in : ∀ t : Fin cfg0.N, win0_0.index t (0 : Fin 4) = t.val / 16 ∧ win0_0.index t (1 : Fin 4) = t.val / 4 % 4
    ∧ win0_0.index t (2 : Fin 4) = t.val % 4 ∧ win0_0.index t (3 : Fin 4) = 0 :=
  (by decide +kernel : ∀ t : Fin grid0.N, _)

theorem idx_out1 : ∀ t : Fin cfg0.N, win0_1.index t (0 : Fin 2) = t.val / 16 ∧ win0_1.index t (1 : Fin 2) = t.val / 4 % 4 :=
  (by decide +kernel : ∀ t : Fin grid0.N, _)

theorem idx_out2 : ∀ t : Fin cfg0.N, win0_2.index t (0 : Fin 2) = t.val / 16 ∧ win0_2.index t (1 : Fin 2) = t.val / 4 % 4 :=
  (by decide +kernel : ∀ t : Fin grid0.N, _)

/-- The input array as the region finds it, at its literal shape. -/
abbrev xarr (c : Dev nD) : Vec F S32x512x64x64 .f32 := V m c main_arg0

theorem xarr_eq (c : Dev nD) : xarr m c = m ((c : Thread nD τ).loc main_arg0) := V_main_arg0 m c

/-- The input block's element `y` at point `t` is the array's element `i` whose coordinates are the block's offsets plus `y`'s. -/
theorem xblk_read (c : Dev nD) (t : Fin cfg0.N) (y : S8x128x16x64.Idx) (i : S32x512x64x64.Idx)
    (h0 : (i 0).val = 8 * (t.val / 16) + (y 0).val) (h1 : (i 1).val = 128 * (t.val / 4 % 4) + (y 1).val)
    (h2 : (i 2).val = 16 * (t.val % 4) + (y 2).val) (h3 : (i 3).val = (y 3).val) :
    xblk m c t y = xarr m c i := by
  obtain ⟨f0, f1, f2, f3⟩ := idx_in t
  unfold xblk iblk
  rw [View.read_apply]
  show V m c main_arg0 (((cfg0.win 0).blk t).view.emb y) = V m c main_arg0 i
  refine congrArg (V m c main_arg0) (funext fun a => Fin.ext ?_)
  match a with
  | ⟨0, _⟩ => show win0_0.index t (0 : Fin 4) * 8 + 1 * (y 0).val = (i 0).val; rw [f0, h0]; omega
  | ⟨1, _⟩ => show win0_0.index t (1 : Fin 4) * 128 + 1 * (y 1).val = (i 1).val; rw [f1, h1]; omega
  | ⟨2, _⟩ => show win0_0.index t (2 : Fin 4) * 16 + 1 * (y 2).val = (i 2).val; rw [f2, h2]; omega
  | ⟨3, _⟩ => show win0_0.index t (3 : Fin 4) * 64 + 1 * (y 3).val = (i 3).val; rw [f3, h3]; omega

/-- The same at the `k`-th point of the tile that starts at `n ≡ 0 (mod 4)`. -/
theorem xblk_at (c : Dev nD) (t : Fin cfg0.N) (n k : ℕ) (ht : t.val = n + k) (hk : k < 4) (h0 : n % 4 = 0)
    (r : Fin 8) (l : Fin 128) (a : Fin 16) (w : Fin 64)
    (hR : 8 * (n / 16) + r.val < 32) (hL : 128 * (n / 4 % 4) + l.val < 512) (hA : 16 * k + a.val < 64) :
    xblk m c t (ix4 r l a w) = xarr m c (ix4 ⟨8 * (n / 16) + r.val, hR⟩ ⟨128 * (n / 4 % 4) + l.val, hL⟩ ⟨16 * k + a.val, hA⟩ w) := by
  refine xblk_read m c t _ _ ?_ ?_ ?_ ?_
  · show 8 * (n / 16) + r.val = 8 * (t.val / 16) + r.val; omega
  · show 128 * (n / 4 % 4) + l.val = 128 * (t.val / 4 % 4) + l.val; omega
  · show 16 * k + a.val = 16 * (t.val % 4) + a.val; omega
  · rfl

end Cert.KernelIdeal.KVal

end
-- ==== Proof.LibSum23.lean ====
/-
  A reduction over the two trailing axes of a rank-4 array, read at a result index as a double sum.

  For a shape `[B, C, H, W]` reduced over its axes 2 and 3 to `[B, C]`, the source indices that drop to the result
  index `(b, c)` are exactly the indices `(b, c, h, w)`, one for each pair `(h, w)`. So an add-reduction read at
  `(b, c)` on the extended reals is the sum over the pairs `(h, w) : Fin H × Fin W` of the source at `(b, c, h, w)`:
  for the bare sum over the dropped set (`sum_filter_drop23`), for a vector add-reduction (`reduceAdd23`,
  `multiReduction_add23`) and for a host add-reduction from an initial value (`hostReduceAdd23`, `hostReduceAdd23_apply`).
  The extents are arbitrary, so the same statement serves a whole array and one block of it.
-/
import Idealize.ShloMosaic.PureOps.Ideal.Laws
import Idealize.ShloMosaic.Lib.ValueIdx
import Idealize.ShloMosaic.Lib.IdealHost

noncomputable section

open scoped BigOperators

namespace Idealize.ShloMosaic.Sum23

open Idealize.ShloMosaic Idealize.ShloMosaic.ValueIdx

variable {B C H W : ℕ}

/-- For any map to rank-2 indices that reads coordinates 0 and 1 of a rank-4 index, the indices sent to `(b, c)`
    are the indices `(b, c, h, w)`; the sum over them is re-indexed along `i ↦ (i 2, i 3)`, whose inverse is
    `(h, w) ↦ (b, c, h, w)`. -/
private theorem sum_filter_of_reads01 {α : Type*} [AddCommMonoid α]
    (drop : (⟨4, ![B, C, H, W]⟩ : Shape).Idx → (⟨2, ![B, C]⟩ : Shape).Idx)
    (hd : ∀ i, (drop i 0).val = (i 0).val ∧ (drop i 1).val = (i 1).val)
    (x : (⟨4, ![B, C, H, W]⟩ : Shape).Idx → α) (b : Fin B) (c : Fin C) :
    ∑ i ∈ Finset.univ.filter (fun i => drop i = ix2 b c), x i = ∑ p : Fin H × Fin W, x (ix4 b c p.1 p.2) := by
  -- an index sent to `(b, c)` has first coordinates `b` and `c`, so it is `(b, c, i 2, i 3)`
  have key : ∀ i, drop i = ix2 b c → ix4 b c (i 2) (i 3) = i := by
    intro i hi
    have h0 : (i 0).val = b.val := (hd i).1.symm.trans (congrArg (fun j => (j 0).val) hi)
    have h1 : (i 1).val = c.val := (hd i).2.symm.trans (congrArg (fun j => (j 1).val) hi)
    funext a
    match a with
    | ⟨0, _⟩ => exact Fin.ext h0.symm
    | ⟨1, _⟩ => exact Fin.ext h1.symm
    | ⟨2, _⟩ => rfl
    | ⟨3, _⟩ => rfl
  refine Finset.sum_nbij' (fun i => ((i 2, i 3) : Fin H × Fin W)) (fun p => ix4 b c p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (hd _).1
    | ⟨1, _⟩ => exact Fin.ext (hd _).2
  · intro i hi; exact key i (Finset.mem_filter.1 hi).2
  · intro p _; rfl
  · intro i hi; exact congrArg x (key i (Finset.mem_filter.1 hi).2).symm

/-- The indices dropping to `(b, c)`, summed, are the pairs `(h, w)`, summed. -/
theorem sum_filter_drop23 {α : Type*} [AddCommMonoid α]
    (h : (⟨4, ![B, C, H, W]⟩ : Shape).Reduces [2, 3] ⟨2, ![B, C]⟩)
    (x : (⟨4, ![B, C, H, W]⟩ : Shape).Idx → α) (b : Fin B) (c : Fin C) :
    ∑ i ∈ Finset.univ.filter (fun i => h.drop i = ix2 b c), x i = ∑ p : Fin H × Fin W, x (ix4 b c p.1 p.2) :=
  -- the kept axes of `[2, 3]` in rank 4 are 0 and 1, so the drop reads those two coordinates
  sum_filter_of_reads01 h.drop (fun _ => ⟨rfl, rfl⟩) x b c

/-- The same for the drop of a host reduction's shape fact. -/
theorem sum_filter_dropTo23 {α : Type*} [AddCommMonoid α]
    (h : (⟨4, ![B, C, H, W]⟩ : Shape).ReducesTo [2, 3] ⟨2, ![B, C]⟩)
    (x : (⟨4, ![B, C, H, W]⟩ : Shape).Idx → α) (b : Fin B) (c : Fin C) :
    ∑ i ∈ Finset.univ.filter (fun i => h.drop i = ix2 b c), x i = ∑ p : Fin H × Fin W, x (ix4 b c p.1 p.2) :=
  sum_filter_of_reads01 h.drop (fun _ => ⟨rfl, rfl⟩) x b c

/-- An add-reduction over axes 2 and 3 on the extended reals, at `(b, c)`. -/
theorem reduceAdd23 (h : (⟨4, ![B, C, H, W]⟩ : Shape).Reduces [2, 3] ⟨2, ![B, C]⟩)
    (x : (⟨4, ![B, C, H, W]⟩ : Shape).Idx → EReal) (b : Fin B) (c : Fin C) :
    Ideal.reduceAdd h x (ix2 b c) = ∑ p : Fin H × Fin W, x (ix4 b c p.1 p.2) :=
  -- the reduction at `(b, c)` is by definition the sum over the indices dropping to `(b, c)`
  sum_filter_drop23 h x b c

/-- A float `vector.multi_reduction <add>` over axes 2 and 3, read at `Ideal` at `(b, c)`. -/
theorem multiReduction_add23 {φ : FTy} (src : FVec Ideal (⟨4, ![B, C, H, W]⟩ : Shape) φ) (acc : BitVec φ.bits)
    (h : (⟨4, ![B, C, H, W]⟩ : Shape).Reduces [2, 3] ⟨2, ![B, C]⟩) (hφ : FKind.Formats φ)
    (hacc : acc = FKind.add.neutral φ hφ) (b : Fin B) (c : Fin C) :
    multiReduction .add [2, 3] (⟨2, ![B, C]⟩ : Shape) src acc h hφ hacc (ix2 b c)
      = ∑ p : Fin H × Fin W, src (ix4 b c p.1 p.2) :=
  -- a sum-reduction is the instance's add-reduction, whatever the accumulator's (neutral) pattern
  sum_filter_drop23 h src b c

/-- The host's add-reduction over axes 2 and 3 on the extended reals, at `(b, c)`: the initial value plus the double sum. -/
theorem hostReduceAdd23 (h' : (⟨4, ![B, C, H, W]⟩ : Shape).ReducesTo [2, 3] ⟨2, ![B, C]⟩)
    (x : (⟨4, ![B, C, H, W]⟩ : Shape).Idx → EReal) (init : EReal) (b : Fin B) (c : Fin C) :
    Ideal.hostReduceAdd h' x init (ix2 b c) = init + ∑ p : Fin H × Fin W, x (ix4 b c p.1 p.2) := by
  unfold Ideal.hostReduceAdd
  rw [sum_filter_dropTo23]

/-- The printed host operation `Host.reduceAdd` with a rank-0 initial value, read at `Ideal` at `(b, c)`. -/
theorem hostReduceAdd23_apply {φ : FTy} (x : FVec Ideal (⟨4, ![B, C, H, W]⟩ : Shape) φ)
    (init : FVec Ideal (⟨0, ![]⟩ : Shape) φ)
    (h' : (⟨4, ![B, C, H, W]⟩ : Shape).ReducesTo [2, 3] ⟨2, ![B, C]⟩) (hu : 0 < (⟨0, ![]⟩ : Shape).numel)
    (b : Fin B) (c : Fin C) :
    Host.reduceAdd x init h' hu (ix2 b c) = init ix0 + ∑ p : Fin H × Fin W, x (ix4 b c p.1 p.2) := by
  -- the rank-0 shape has one index, so the initial array's first element is its element at that index
  have e : Shape.Idx.first hu = ix0 := funext fun a => a.elim0
  rw [hostReduceAdd_apply, e]
  exact hostReduceAdd23 h' x (init ix0) b c

end Idealize.ShloMosaic.Sum23

end
-- ==== Proof.KPay.lean ====
/-
  The body's arithmetic read at one element, on the extended reals.

  At a row `r` and lane `l` of the [8, 128] tile: a step of the first running sum adds to the previous value the sum
  of the block over its last two axes at `(r, l)`; a step of the second adds the sum of the squares; the stored mean
  is the first sum over 4096; the stored standard deviation is `√(max ((q - s·s / 4096) / 4095) 0)` of the two sums.
-/
import proofs.«110391_j13494787244486_1_alg».proof.Proof.Gen.KernelIdeal.Skeleton
import proofs.«110391_j13494787244486_1_alg».proof.Proof.LibSum23
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.KVal

open Cert.KernelIdeal Cert.KernelIdeal.Gen

/-- The reset stores the zero block. -/
theorem pay1_apply (r : Fin 8) (l : Fin 128) : k0_pay1 (F := Ideal) (ix2 r l) = 0 := by
  unfold k0_pay1
  rw [shapeCast_self]
  exact Ideal.ofBits_zero_f32

theorem pay2_apply (r : Fin 8) (l : Fin 128) : k0_pay2 (F := Ideal) (ix2 r l) = 0 := by
  unfold k0_pay2
  rw [shapeCast_self]
  exact Ideal.ofBits_zero_f32

/-- A step of the running sum: the previous value plus the block summed over its rows and lanes. -/
theorem pay3_apply (X : Vec Ideal S8x128x16x64 .f32) (A : Vec Ideal S8x128 .f32) (r : Fin 8) (l : Fin 128) :
    k0_pay3 (F := Ideal) X A (ix2 r l) = A (ix2 r l) + ∑ p : Fin 16 × Fin 64, X (ix4 r l p.1 p.2) := by
  unfold k0_pay3
  rw [shapeCast_self]
  exact congrArg (A (ix2 r l) + ·)
    (Idealize.ShloMosaic.Sum23.multiReduction_add23 (B := 8) (C := 128) (H := 16) (W := 64) X _ _ _ _ r l)

/-- A step of the running sum of squares. -/
theorem pay4_apply (X : Vec Ideal S8x128x16x64 .f32) (A : Vec Ideal S8x128 .f32) (r : Fin 8) (l : Fin 128) :
    k0_pay4 (F := Ideal) X A (ix2 r l)
      = A (ix2 r l) + ∑ p : Fin 16 × Fin 64, X (ix4 r l p.1 p.2) * X (ix4 r l p.1 p.2) := by
  unfold k0_pay4
  rw [shapeCast_self]
  exact congrArg (A (ix2 r l) + ·)
    (Idealize.ShloMosaic.Sum23.multiReduction_add23 (B := 8) (C := 128) (H := 16) (W := 64) (mulf X X) _ _ _ _ r l)

/-- The stored mean. -/
theorem pay5_apply (S : Vec Ideal S8x128 .f32) (r : Fin 8) (l : Fin 128) :
    k0_pay5 (F := Ideal) S (ix2 r l) = Ideal.div (S (ix2 r l)) (Ideal.ofBits .f32 0x45800000#32) := rfl

/-- The stored standard deviation. -/
theorem pay6_apply (S Q : Vec Ideal S8x128 .f32) (r : Fin 8) (l : Fin 128) :
    k0_pay6 (F := Ideal) S Q (ix2 r l)
      = Ideal.sqrt (max (Ideal.div (Q (ix2 r l) - Ideal.div (S (ix2 r l) * S (ix2 r l)) (Ideal.ofBits .f32 0x45800000#32))
          (Ideal.ofBits .f32 0x457FF000#32)) (Ideal.ofBits .f32 0x00000000#32)) := rfl

/-- Four steps from the zero block: the four blocks' sums added in order. -/
theorem sum4_apply (X0 X1 X2 X3 : Vec Ideal S8x128x16x64 .f32) (r : Fin 8) (l : Fin 128) :
    k0_pay3 (F := Ideal) X3 (k0_pay3 X2 (k0_pay3 X1 (k0_pay3 X0 (k0_pay1 (F := Ideal))))) (ix2 r l)
      = (((0 + ∑ p : Fin 16 × Fin 64, X0 (ix4 r l p.1 p.2)) + ∑ p : Fin 16 × Fin 64, X1 (ix4 r l p.1 p.2))
          + ∑ p : Fin 16 × Fin 64, X2 (ix4 r l p.1 p.2)) + ∑ p : Fin 16 × Fin 64, X3 (ix4 r l p.1 p.2) := by
  rw [pay3_apply, pay3_apply, pay3_apply, pay3_apply, pay1_apply]

theorem sumSq4_apply (X0 X1 X2 X3 : Vec Ideal S8x128x16x64 .f32) (r : Fin 8) (l : Fin 128) :
    k0_pay4 (F := Ideal) X3 (k0_pay4 X2 (k0_pay4 X1 (k0_pay4 X0 (k0_pay2 (F := Ideal))))) (ix2 r l)
      = (((0 + ∑ p : Fin 16 × Fin 64, X0 (ix4 r l p.1 p.2) * X0 (ix4 r l p.1 p.2))
            + ∑ p : Fin 16 × Fin 64, X1 (ix4 r l p.1 p.2) * X1 (ix4 r l p.1 p.2))
          + ∑ p : Fin 16 × Fin 64, X2 (ix4 r l p.1 p.2) * X2 (ix4 r l p.1 p.2))
        + ∑ p : Fin 16 × Fin 64, X3 (ix4 r l p.1 p.2) * X3 (ix4 r l p.1 p.2) := by
  rw [pay4_apply, pay4_apply, pay4_apply, pay4_apply, pay2_apply]

end Cert.KernelIdeal.KVal

end
-- ==== Proof.KSplit.lean ====
/-
  Sixty-four rows as four blocks of sixteen.

  A double sum over `(h, w) : Fin 64 × Fin 64` is the sum, over the four blocks `k` of sixteen rows, of the double sums
  over `(a, w) : Fin 16 × Fin 64` at the row `16·k + a` — written out as the left-nested sum from zero that an
  accumulator visiting the blocks in order computes. Only commutativity and associativity of the addition are used.
-/
import Mathlib.Algebra.BigOperators.Fin
import Mathlib.Algebra.BigOperators.Group.Finset.Basic
import Mathlib.Data.Fintype.BigOperators
import Mathlib.Logic.Equiv.Fin.Basic

open scoped BigOperators

namespace Cert.Rows

/-- The rows `0 … 63` are the rows `16·k + a` for `k < 4` and `a < 16`. -/
theorem sum_rows {α : Type*} [AddCommMonoid α] (g : Fin 64 → α) :
    ∑ h : Fin 64, g h = ∑ k : Fin 4, ∑ a : Fin 16, g ⟨16 * k.val + a.val, by omega⟩ := by
  rw [← Fintype.sum_prod_type']
  refine (Equiv.sum_comp (finProdFinEquiv (m := 4) (n := 16)) g).symm.trans ?_
  refine Finset.sum_congr rfl fun p _ => congrArg g (Fin.ext ?_)
  show p.2.val + 16 * p.1.val = 16 * p.1.val + p.2.val
  omega

/-- The double sum over 64 × 64 as the accumulator's four steps from zero. -/
theorem sum_blocks {α : Type*} [AddCommMonoid α] (f : Fin 64 → Fin 64 → α) :
    ∑ p : Fin 64 × Fin 64, f p.1 p.2
      = (((0 + ∑ q : Fin 16 × Fin 64, f ⟨16 * 0 + q.1.val, by omega⟩ q.2)
            + ∑ q : Fin 16 × Fin 64, f ⟨16 * 1 + q.1.val, by omega⟩ q.2)
          + ∑ q : Fin 16 × Fin 64, f ⟨16 * 2 + q.1.val, by omega⟩ q.2)
        + ∑ q : Fin 16 × Fin 64, f ⟨16 * 3 + q.1.val, by omega⟩ q.2 := by
  rw [Fintype.sum_prod_type, sum_rows, Fin.sum_univ_four, zero_add]
  simp only [Fintype.sum_prod_type]
  rfl

end Cert.Rows
-- ==== Proof.Spec.lean ====
/-
  The common value of the two programs, element by element, on the extended reals.

  For an input `x` of shape [32, 512, 64, 64] and a channel `(b, c)`, write `s = ∑ x` and `q = ∑ x²` over the 64 × 64
  spatial positions of that channel. The kernel's two result arrays hold `s / 4096` and
  `√(max ((q - s·s / 4096) / 4095) 0)` (`meanAt`, `stdAt`: the one-pass form, the running sums `s` and `q`
  accumulated over four blocks of sixteen rows). The reference holds `(0 + s) / 4096` and, with `μ` that mean,
  `√((0 + ∑ (x - μ)²) / (4096 - 1))` guarded by a test that the divisor is positive (`refMeanAt`, `refStdAt`: the
  two-pass form). On finite inputs `∑ (x - s/n)² = q - s²/n ≥ 0`, so the two forms agree.
-/
import Idealize.ShloMosaic.PureOps.Ideal
import Idealize.ShloMosaic.Lib.ValueIdx

noncomputable section

open scoped BigOperators

namespace Cert.Spec

open Idealize.ShloMosaic Idealize.ShloMosaic.ValueIdx

/-- The input's shape and the shape of each of the two result arrays. -/
abbrev SX : Shape := ⟨4, ![32, 512, 64, 64]⟩
abbrev S2 : Shape := ⟨2, ![32, 512]⟩

/-- The sum of channel `(b, c)` over its 64 × 64 spatial positions. -/
def rowSum (x : SX.Idx → EReal) (b : Fin 32) (c : Fin 512) : EReal :=
  ∑ p : Fin 64 × Fin 64, x (ix4 b c p.1 p.2)

/-- The sum of the squares of channel `(b, c)`. -/
def rowSumSq (x : SX.Idx → EReal) (b : Fin 32) (c : Fin 512) : EReal :=
  ∑ p : Fin 64 × Fin 64, x (ix4 b c p.1 p.2) * x (ix4 b c p.1 p.2)

/-- One-pass mean: `s / 4096`. -/
def meanAt (x : SX.Idx → EReal) (b : Fin 32) (c : Fin 512) : EReal :=
  Ideal.div (rowSum x b c) (Ideal.ofBits .f32 0x45800000#32)

/-- One-pass unbiased standard deviation: `√(max ((q - s·s / 4096) / 4095) 0)`. -/
def stdAt (x : SX.Idx → EReal) (b : Fin 32) (c : Fin 512) : EReal :=
  Ideal.sqrt (max (Ideal.div (rowSumSq x b c - Ideal.div (rowSum x b c * rowSum x b c) (Ideal.ofBits .f32 0x45800000#32))
      (Ideal.ofBits .f32 0x457FF000#32)) (Ideal.ofBits .f32 0x00000000#32))

/-- The two result arrays as functions of the index. -/
def meanArr (x : SX.Idx → EReal) : S2.Idx → EReal := fun j => meanAt x (j 0) (j 1)
def stdArr (x : SX.Idx → EReal) : S2.Idx → EReal := fun j => stdAt x (j 0) (j 1)

theorem meanArr_ix2 (x : SX.Idx → EReal) (b : Fin 32) (c : Fin 512) : meanArr x (ix2 b c) = meanAt x b c := rfl
theorem stdArr_ix2 (x : SX.Idx → EReal) (b : Fin 32) (c : Fin 512) : stdArr x (ix2 b c) = stdAt x b c := rfl

/-! ## The two-pass form -/

/-- Two-pass mean: the sum started from the zero word, over 4096. -/
def refMeanAt (x : SX.Idx → EReal) (b : Fin 32) (c : Fin 512) : EReal :=
  Ideal.div (Ideal.ofBits .f32 0x00000000#32 + rowSum x b c) (Ideal.ofBits .f32 0x45800000#32)

/-- The divisor of the unbiased variance: `4096` less the integer `1` converted. -/
def refCount : EReal :=
  Ideal.ofBits .f32 0x45800000#32 - FloatOps.sitofp (F := Ideal) .f32 (1#32 : BitVec 32)

/-- Two-pass variance: the squared deviations from the mean, summed from the zero word, over the divisor. -/
def refVarAt (x : SX.Idx → EReal) (b : Fin 32) (c : Fin 512) : EReal :=
  Ideal.div (Ideal.ofBits .f32 0x00000000#32
      + ∑ p : Fin 64 × Fin 64, (x (ix4 b c p.1 p.2) - refMeanAt x b c) * (x (ix4 b c p.1 p.2) - refMeanAt x b c))
    refCount

/-- Two-pass standard deviation: the root of the variance where the divisor is positive (else of the quiet-NaN word). -/
def refStdAt (x : SX.Idx → EReal) (b : Fin 32) (c : Fin 512) : EReal :=
  Ideal.sqrt (Scalar.select (FloatOps.cmpf (F := Ideal) (φ := .f32) .ogt refCount (Ideal.ofBits .f32 0x00000000#32))
    (refVarAt x b c) (Ideal.ofBits .f32 0x7FC00000#32))

end Cert.Spec

end
-- ==== Proof.KSums.lean ====
/-
  What the kernel's two result arrays hold after the run.

  At the last point `n + 3` of the tile that starts at `n ≡ 0 (mod 4)` the body stores, at row `r` and lane `l`, the
  mean and the standard deviation computed from the two running sums; those sums are the sums of the channel
  `(8·i + r, 128·j + l)` over all 64 × 64 positions, the four blocks of sixteen rows added in order. The block is
  written back to tile `(i, j)` of its [32, 512] array; the sixteen tiles cover the array, so it ends holding the
  one-pass mean (respectively standard deviation) of every channel.
-/
import proofs.«110391_j13494787244486_1_alg».proof.Proof.KBlocks
import proofs.«110391_j13494787244486_1_alg».proof.Proof.KPay
import proofs.«110391_j13494787244486_1_alg».proof.Proof.KSplit
import proofs.«110391_j13494787244486_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- The first running sum after a tile's four points, at `(r, l)`: the channel's sum over all positions. -/
theorem tileSum_apply (c : Dev nD) (n : ℕ) (hn : n + 3 < cfg0.N) (h0 : n % 4 = 0) (r : Fin 8) (l : Fin 128)
    (hR : 8 * (n / 16) + r.val < 32) (hL : 128 * (n / 4 % 4) + l.val < 512) :
    tileSum m c n hn (ix2 r l) = Cert.Spec.rowSum (xarr m c) ⟨8 * (n / 16) + r.val, hR⟩ ⟨128 * (n / 4 % 4) + l.val, hL⟩ := by
  have h2 := Nat.lt_of_succ_lt hn
  have h1 := Nat.lt_of_succ_lt h2
  have hz := Nat.lt_of_succ_lt h1
  have e0 : ∀ q : Fin 16 × Fin 64, xblk m c ⟨n, hz⟩ (ix4 r l q.1 q.2)
      = xarr m c (ix4 ⟨8 * (n / 16) + r.val, hR⟩ ⟨128 * (n / 4 % 4) + l.val, hL⟩ ⟨16 * 0 + q.1.val, by omega⟩ q.2) :=
    fun q => xblk_at m c ⟨n, hz⟩ n 0 rfl (by omega) h0 r l q.1 q.2 hR hL (by omega)
  have e1 : ∀ q : Fin 16 × Fin 64, xblk m c ⟨n + 1, h1⟩ (ix4 r l q.1 q.2)
      = xarr m c (ix4 ⟨8 * (n / 16) + r.val, hR⟩ ⟨128 * (n / 4 % 4) + l.val, hL⟩ ⟨16 * 1 + q.1.val, by omega⟩ q.2) :=
    fun q => xblk_at m c ⟨n + 1, h1⟩ n 1 rfl (by omega) h0 r l q.1 q.2 hR hL (by omega)
  have e2 : ∀ q : Fin 16 × Fin 64, xblk m c ⟨n + 2, h2⟩ (ix4 r l q.1 q.2)
      = xarr m c (ix4 ⟨8 * (n / 16) + r.val, hR⟩ ⟨128 * (n / 4 % 4) + l.val, hL⟩ ⟨16 * 2 + q.1.val, by omega⟩ q.2) :=
    fun q => xblk_at m c ⟨n + 2, h2⟩ n 2 rfl (by omega) h0 r l q.1 q.2 hR hL (by omega)
  have e3 : ∀ q : Fin 16 × Fin 64, xblk m c ⟨n + 3, hn⟩ (ix4 r l q.1 q.2)
      = xarr m c (ix4 ⟨8 * (n / 16) + r.val, hR⟩ ⟨128 * (n / 4 % 4) + l.val, hL⟩ ⟨16 * 3 + q.1.val, by omega⟩ q.2) :=
    fun q => xblk_at m c ⟨n + 3, hn⟩ n 3 rfl (by omega) h0 r l q.1 q.2 hR hL (by omega)
  unfold tileSum
  refine (sum4_apply (xblk m c ⟨n, hz⟩) (xblk m c ⟨n + 1, h1⟩) (xblk m c ⟨n + 2, h2⟩) (xblk m c ⟨n + 3, hn⟩) r l).trans ?_
  simp only [e0, e1, e2, e3]
  exact (Cert.Rows.sum_blocks fun h w =>
    xarr m c (ix4 ⟨8 * (n / 16) + r.val, hR⟩ ⟨128 * (n / 4 % 4) + l.val, hL⟩ h w)).symm

/-- The second running sum likewise: the channel's sum of squares. -/
theorem tileSumSq_apply (c : Dev nD) (n : ℕ) (hn : n + 3 < cfg0.N) (h0 : n % 4 = 0) (r : Fin 8) (l : Fin 128)
    (hR : 8 * (n / 16) + r.val < 32) (hL : 128 * (n / 4 % 4) + l.val < 512) :
    tileSumSq m c n hn (ix2 r l) = Cert.Spec.rowSumSq (xarr m c) ⟨8 * (n / 16) + r.val, hR⟩ ⟨128 * (n / 4 % 4) + l.val, hL⟩ := by
  have h2 := Nat.lt_of_succ_lt hn
  have h1 := Nat.lt_of_succ_lt h2
  have hz := Nat.lt_of_succ_lt h1
  have e0 : ∀ q : Fin 16 × Fin 64, xblk m c ⟨n, hz⟩ (ix4 r l q.1 q.2)
      = xarr m c (ix4 ⟨8 * (n / 16) + r.val, hR⟩ ⟨128 * (n / 4 % 4) + l.val, hL⟩ ⟨16 * 0 + q.1.val, by omega⟩ q.2) :=
    fun q => xblk_at m c ⟨n, hz⟩ n 0 rfl (by omega) h0 r l q.1 q.2 hR hL (by omega)
  have e1 : ∀ q : Fin 16 × Fin 64, xblk m c ⟨n + 1, h1⟩ (ix4 r l q.1 q.2)
      = xarr m c (ix4 ⟨8 * (n / 16) + r.val, hR⟩ ⟨128 * (n / 4 % 4) + l.val, hL⟩ ⟨16 * 1 + q.1.val, by omega⟩ q.2) :=
    fun q => xblk_at m c ⟨n + 1, h1⟩ n 1 rfl (by omega) h0 r l q.1 q.2 hR hL (by omega)
  have e2 : ∀ q : Fin 16 × Fin 64, xblk m c ⟨n + 2, h2⟩ (ix4 r l q.1 q.2)
      = xarr m c (ix4 ⟨8 * (n / 16) + r.val, hR⟩ ⟨128 * (n / 4 % 4) + l.val, hL⟩ ⟨16 * 2 + q.1.val, by omega⟩ q.2) :=
    fun q => xblk_at m c ⟨n + 2, h2⟩ n 2 rfl (by omega) h0 r l q.1 q.2 hR hL (by omega)
  have e3 : ∀ q : Fin 16 × Fin 64, xblk m c ⟨n + 3, hn⟩ (ix4 r l q.1 q.2)
      = xarr m c (ix4 ⟨8 * (n / 16) + r.val, hR⟩ ⟨128 * (n / 4 % 4) + l.val, hL⟩ ⟨16 * 3 + q.1.val, by omega⟩ q.2) :=
    fun q => xblk_at m c ⟨n + 3, hn⟩ n 3 rfl (by omega) h0 r l q.1 q.2 hR hL (by omega)
  unfold tileSumSq
  refine (sumSq4_apply (xblk m c ⟨n, hz⟩) (xblk m c ⟨n + 1, h1⟩) (xblk m c ⟨n + 2, h2⟩) (xblk m c ⟨n + 3, hn⟩) r l).trans ?_
  simp only [e0, e1, e2, e3]
  exact (Cert.Rows.sum_blocks fun h w =>
    xarr m c (ix4 ⟨8 * (n / 16) + r.val, hR⟩ ⟨128 * (n / 4 % 4) + l.val, hL⟩ h w)
      * xarr m c (ix4 ⟨8 * (n / 16) + r.val, hR⟩ ⟨128 * (n / 4 % 4) + l.val, hL⟩ h w)).symm

end Cert.KernelIdeal.KVal

end
-- ==== Proof.KFinal.lean ====
/-
  The two result arrays after the run: the one-pass mean and the one-pass standard deviation of every channel.

  The last point of a tile writes its [8, 128] block back to tile `(i, j)` of the [32, 512] array; at `(r, l)` the
  block holds the mean (respectively the standard deviation) computed from the channel's two sums. The sixteen tiles
  cover the array and no other point writes it, so the array ends at the specified function of the input.
-/
import proofs.«110391_j13494787244486_1_alg».proof.Proof.KSums

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ)

/-- What a flushing point writes back into result 0 is its tile of `meanArr` of the input. -/
theorem flushed1 (c : Dev nD) (t : Fin cfg0.N) (hf : (cfg0.win 1).flush t = true) :
    (dats m 0 c).flushed 1 t = ((cfg0.win 1).blk t).view.read (Elt Ideal) (Cert.Spec.meanArr (xarr m c)) := by
  have h3 : t.val % 4 = 3 := (flush0_1 t).mp hf
  have hN : cfg0.N = 64 := N_0
  obtain ⟨tv, tlt⟩ := t
  obtain ⟨n, rfl⟩ : ∃ n, tv = n + 3 := ⟨tv - 3, by dsimp only at h3; omega⟩
  have h0 : n % 4 = 0 := by dsimp only at h3; omega
  have hn64 : n + 3 < 64 := hN ▸ tlt
  show (cfg0.win 1).cut (grid0.coords ⟨n + 3, tlt⟩) ((dats m 0 c).after 1 ⟨n + 3, tlt⟩) = _
  rw [after0_1]
  show (cfg0.win 1).cut (grid0.coords ⟨n + 3, tlt⟩) (outsAt0 m c (n + 3) tlt).1 = _
  rw [(outs_at_last m c n tlt h0).1]
  obtain ⟨g0, g1⟩ := idx_out1 ⟨n + 3, tlt⟩
  funext j
  obtain ⟨r, l, rfl⟩ : ∃ (r : Fin 8) (l : Fin 128), j = ix2 r l := ⟨j 0, j 1, eq_ix2 j⟩
  have hR : 8 * (n / 16) + r.val < 32 := by omega
  have hL : 128 * (n / 4 % 4) + l.val < 512 := by omega
  rw [View.read_apply]
  have hi : ((cfg0.win 1).blk ⟨n + 3, tlt⟩).view.emb (ix2 r l)
      = ix2 (⟨8 * (n / 16) + r.val, hR⟩ : Fin 32) (⟨128 * (n / 4 % 4) + l.val, hL⟩ : Fin 512) := by
    funext a; apply Fin.ext
    match a with
    | ⟨0, _⟩ => show win0_1.index ⟨n + 3, tlt⟩ (0 : Fin 2) * 8 + 1 * r.val = 8 * (n / 16) + r.val; rw [g0]; dsimp only; omega
    | ⟨1, _⟩ => show win0_1.index ⟨n + 3, tlt⟩ (1 : Fin 2) * 128 + 1 * l.val = 128 * (n / 4 % 4) + l.val; rw [g1]; dsimp only; omega
  rw [hi, Cert.Spec.meanArr_ix2]
  show k0_pay5 (F := Ideal) (tileSum m c n tlt) (ix2 r l) = Cert.Spec.meanAt (xarr m c) _ _
  rw [pay5_apply, tileSum_apply m c n tlt h0 r l hR hL]
  rfl

/-- An element of the array is in point `t`'s block of result 0 iff each coordinate is in the block's range. -/
theorem mem_blk1 (t : Fin cfg0.N) (i : S32x512.Idx) :
    i ∈ ((cfg0.win 1).blk t).view.set
      ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl

/-- Every element of result 0 lies in the block of the last point of its tile. -/
theorem cover1 (i : S32x512.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hN : cfg0.N = 64 := N_0
  have hlt : 16 * ((i 0).val / 8) + 4 * ((i 1).val / 128) + 3 < cfg0.N := by rw [hN]; omega
  obtain ⟨t, ht⟩ : ∃ t : Fin cfg0.N, t.val = 16 * ((i 0).val / 8) + 4 * ((i 1).val / 128) + 3 := ⟨⟨_, hlt⟩, rfl⟩
  obtain ⟨g0, g1⟩ := idx_out1 t
  refine ⟨t, (flush0_1 t).mpr (by omega), ?_⟩
  rw [mem_blk1]
  intro a
  match a with
  | ⟨0, _⟩ =>
    show win0_1.index t (0 : Fin 2) * 8 ≤ (i 0).val ∧ (i 0).val < win0_1.index t (0 : Fin 2) * 8 + 8
    rw [g0]; omega
  | ⟨1, _⟩ =>
    show win0_1.index t (1 : Fin 2) * 128 ≤ (i 1).val ∧ (i 1).val < win0_1.index t (1 : Fin 2) * 128 + 128
    rw [g1]; omega

/-- Result 0 after the run. -/
theorem final1 (c : Dev nD) : (dats m 0 c).arrAt 1 cfg0.N = Cert.Spec.meanArr (xarr m c) :=
  (dats m 0 c).arrAt_eq_of_cover 1 _ (flushed1 m c) cover1

/-- What a flushing point writes back into result 1 is its tile of `stdArr` of the input. -/
theorem flushed2 (c : Dev nD) (t : Fin cfg0.N) (hf : (cfg0.win 2).flush t = true) :
    (dats m 0 c).flushed 2 t = ((cfg0.win 2).blk t).view.read (Elt Ideal) (Cert.Spec.stdArr (xarr m c)) := by
  have h3 : t.val % 4 = 3 := (flush0_2 t).mp hf
  have hN : cfg0.N = 64 := N_0
  obtain ⟨tv, tlt⟩ := t
  obtain ⟨n, rfl⟩ : ∃ n, tv = n + 3 := ⟨tv - 3, by dsimp only at h3; omega⟩
  have h0 : n % 4 = 0 := by dsimp only at h3; omega
  have hn64 : n + 3 < 64 := hN ▸ tlt
  show (cfg0.win 2).cut (grid0.coords ⟨n + 3, tlt⟩) ((dats m 0 c).after 2 ⟨n + 3, tlt⟩) = _
  rw [after0_2]
  show (cfg0.win 2).cut (grid0.coords ⟨n + 3, tlt⟩) (outsAt0 m c (n + 3) tlt).2.1 = _
  rw [(outs_at_last m c n tlt h0).2]
  obtain ⟨g0, g1⟩ := idx_out2 ⟨n + 3, tlt⟩
  funext j
  obtain ⟨r, l, rfl⟩ : ∃ (r : Fin 8) (l : Fin 128), j = ix2 r l := ⟨j 0, j 1, eq_ix2 j⟩
  have hR : 8 * (n / 16) + r.val < 32 := by omega
  have hL : 128 * (n / 4 % 4) + l.val < 512 := by omega
  rw [View.read_apply]
  have hi : ((cfg0.win 2).blk ⟨n + 3, tlt⟩).view.emb (ix2 r l)
      = ix2 (⟨8 * (n / 16) + r.val, hR⟩ : Fin 32) (⟨128 * (n / 4 % 4) + l.val, hL⟩ : Fin 512) := by
    funext a; apply Fin.ext
    match a with
    | ⟨0, _⟩ => show win0_2.index ⟨n + 3, tlt⟩ (0 : Fin 2) * 8 + 1 * r.val = 8 * (n / 16) + r.val; rw [g0]; dsimp only; omega
    | ⟨1, _⟩ => show win0_2.index ⟨n + 3, tlt⟩ (1 : Fin 2) * 128 + 1 * l.val = 128 * (n / 4 % 4) + l.val; rw [g1]; dsimp only; omega
  rw [hi, Cert.Spec.stdArr_ix2]
  show k0_pay6 (F := Ideal) (tileSum m c n tlt) (tileSumSq m c n tlt) (ix2 r l) = Cert.Spec.stdAt (xarr m c) _ _
  rw [pay6_apply, tileSum_apply m c n tlt h0 r l hR hL, tileSumSq_apply m c n tlt h0 r l hR hL]
  rfl

/-- An element of the array is in point `t`'s block of result 1 iff each coordinate is in the block's range. -/
theorem mem_blk2 (t : Fin cfg0.N) (i : S32x512.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Every element of result 1 lies in the block of the last point of its tile. -/
theorem cover2 (i : S32x512.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hN : cfg0.N = 64 := N_0
  have hlt : 16 * ((i 0).val / 8) + 4 * ((i 1).val / 128) + 3 < cfg0.N := by rw [hN]; omega
  obtain ⟨t, ht⟩ : ∃ t : Fin cfg0.N, t.val = 16 * ((i 0).val / 8) + 4 * ((i 1).val / 128) + 3 := ⟨⟨_, hlt⟩, rfl⟩
  obtain ⟨g0, g1⟩ := idx_out2 t
  refine ⟨t, (flush0_2 t).mpr (by omega), ?_⟩
  rw [mem_blk2]
  intro a
  match a with
  | ⟨0, _⟩ =>
    show win0_2.index t (0 : Fin 2) * 8 ≤ (i 0).val ∧ (i 0).val < win0_2.index t (0 : Fin 2) * 8 + 8
    rw [g0]; omega
  | ⟨1, _⟩ =>
    show win0_2.index t (1 : Fin 2) * 128 ≤ (i 1).val ∧ (i 1).val < win0_2.index t (1 : Fin 2) * 128 + 128
    rw [g1]; omega

/-- Result 1 after the run. -/
theorem final2 (c : Dev nD) : (dats m 0 c).arrAt 2 cfg0.N = Cert.Spec.stdArr (xarr m c) :=
  (dats m 0 c).arrAt_eq_of_cover 2 _ (flushed2 m c) cover2

end Cert.KernelIdeal.KVal

end
-- ==== Proof.KRun.lean ====
/-
  The kernel's run, read: the result is the concatenation of the two arrays the region leaves.

  After the region the program concatenates the means and the standard deviations along the channel axis. The region
  leaves the one-pass mean and standard deviation of every channel in its two result arrays, so the program's result is
  their concatenation, and the input array is unchanged.
-/
import proofs.«110391_j13494787244486_1_alg».proof.Proof.KFinal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ) (ρ : Dev nD → PrngReg)

/-- The concatenation of the one-pass means and standard deviations of an input. -/
abbrev outOf (x : Vec Ideal S32x512x64x64 .f32) : Vec Ideal S32x1024 .f32 :=
  concatenate S32x1024 1 [⟨S32x512, Cert.Spec.meanArr x⟩, ⟨S32x512, Cert.Spec.stdArr x⟩] concatenates_S32x512_S32x512_S32x1024_d1

/-- The line after the region, applied to what the region leaves. -/
theorem tail_v1 (c : Dev nD) :
    Pipeline.afterTail₀ cfgs (dats m) 0 (V0 m) [hostOps1] c main_v1 = outOf (xarr m c) := by
  unfold Pipeline.afterTail₀
  show StableHlo.after hostOps1 _ (Proc.devRef .tc main_v1) = _
  after_results
  have e1 : Pipeline.withArrays (cfgs 0).spec c (V0 m c) (fun w => (dats m 0 c).arrAt w (cfgs 0).N) (Proc.devRef .tc main_v0_0)
      = Cert.Spec.meanArr (xarr m c) :=
    (Pipeline.withArrays_arr spec0 launch0.win.arr_inj c _ _ 1).trans (final1 m c)
  have e2 : Pipeline.withArrays (cfgs 0).spec c (V0 m c) (fun w => (dats m 0 c).arrAt w (cfgs 0).N) (Proc.devRef .tc main_v0_1)
      = Cert.Spec.stdArr (xarr m c) :=
    (Pipeline.withArrays_arr spec0 launch0.win.arr_inj c _ _ 2).trans (final2 m c)
  exact congrArg₂ (fun a b => concatenate S32x1024 1 [⟨S32x512, a⟩, ⟨S32x512, b⟩] concatenates_S32x512_S32x512_S32x1024_d1) e1 e2

/-- Every weakly fair execution of the idealized kernel terminates with its result at the concatenation of the one-pass
    means and standard deviations of its input, and the input unchanged. -/
theorem run : θ_run defs (onTc (τ := τ) (main (F := Ideal))) ⟨m, fun _ => 0, ρ⟩ fun r => ∀ c : Dev nD,
      r.2.mem ((c.tc : Thread nD τ).loc main_v1) = outOf (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans
          ((tail_v1 m c).trans (congrArg outOf (xarr_eq m c))),
        ((h c).1 0).trans (((dats m 0 c).arrAt_in 0 rfl _).trans ((A_eq m c 0).trans (V_main_arg0 m c)))⟩)
    (run_main m ρ)

end Cert.KernelIdeal.KVal

end
-- ==== Proof.RefRun.lean ====
/-
  The reference program's run, read back as two pure terms.

  The reference computes, per channel of a [32, 512, 64, 64] input, the mean over the 64 × 64 spatial positions and the
  unbiased standard deviation in two passes: the mean first, then the sum of the squared deviations from it, divided by
  the count less one, guarded by a test that this divisor is positive, and the square root. Its @main calls the
  standard deviation through three nested module-local functions; a call executes the callee's body on the operands,
  so the whole program is one straight line of thirty host operations, listed here in order. Every weakly fair
  execution terminates with the result buffer at the concatenation of the two composed terms `refMean` and `refStd`
  of the argument's launch contents, the argument unchanged.
-/
import proofs.«110391_j13494787244486_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two composed terms -/

/-- The mean: the input reduced by addition over its two trailing axes from the zero word, over the word of 4096. -/
def refMean (x : FVec F S32x512x64x64 .f32) : FVec F S32x512 .f32 :=
  Host.divf (Host.reduceAdd x (constant S_ .f32 0x00000000#32) reducesTo_S32x512x64x64_S32x512_d2_3 h_S_)
    (broadcastInDim S32x512 ![] bcast_S_S32x512 (constant S_ .f32 0x45800000#32))

/-- The standard deviation. The deviations are the input less its channel's mean (the channel sums kept with two unit
    trailing axes, over 4096, broadcast back along those axes); the variance is their squares summed over the two
    trailing axes from the zero word, over the divisor (the word of 4096 less the integer 1 converted, a rank-0
    value); the result is the root of the variance where the divisor is positive, else of the quiet-NaN word. -/
def refStd (x : FVec F S32x512x64x64 .f32) : FVec F S32x512 .f32 :=
  Host.sqrt (select
    (broadcastInDim S32x512 ![] bcast_S_S32x512
      (cmpf (F := F) .ogt (subf (constant S_ .f32 0x45800000#32) (sitofp .f32 (constantI S_ 32 1#32))) (constant S_ .f32 0x00000000#32)))
    (Host.divf
      (Host.reduceAdd
        (mulf
          (subf x (broadcastInDim S32x512x64x64 ![0, 1, 2, 3] bcast_S32x512x1x1_S32x512x64x64_0_1_2_3
        (Host.divf (broadcastInDim S32x512x1x1 ![0, 1] bcast_S32x512_S32x512x1x1_0_1 (Host.reduceAdd x (constant S_ .f32 0x00000000#32) reducesTo_S32x512x64x64_S32x512_d2_3 h_S_))
          (broadcastInDim S32x512x1x1 ![] bcast_S_S32x512x1x1 (constant S_ .f32 0x45800000#32)))))
          (subf x (broadcastInDim S32x512x64x64 ![0, 1, 2, 3] bcast_S32x512x1x1_S32x512x64x64_0_1_2_3
        (Host.divf (broadcastInDim S32x512x1x1 ![0, 1] bcast_S32x512_S32x512x1x1_0_1 (Host.reduceAdd x (constant S_ .f32 0x00000000#32) reducesTo_S32x512x64x64_S32x512_d2_3 h_S_))
          (broadcastInDim S32x512x1x1 ![] bcast_S_S32x512x1x1 (constant S_ .f32 0x45800000#32))))))
        (constant S_ .f32 0x00000000#32) reducesTo_S32x512x64x64_S32x512_d2_3 h_S_)
      (broadcastInDim S32x512 ![] bcast_S_S32x512 (subf (constant S_ .f32 0x45800000#32) (sitofp .f32 (constantI S_ 32 1#32)))))
    (broadcastInDim S32x512 ![] bcast_S_S32x512 (id (constant S_ .f32 0x7FC00000#32))))

/-! ## The program as a list of operations -/

/-- The thirty operations, in order: @main's six up to the call, the variance function's nineteen, the selecting
    function's three inside it, the root, and @main's concatenation. -/
abbrev ops : List (HloOp τ sig (Elt F)) :=
  [ nullary main_cst (constant S_ .f32 0x00000000#32),
    binary main_arg0 main_cst main_v0 ((fun x v => Host.reduceAdd x v reducesTo_S32x512x64x64_S32x512_d2_3 h_S_) : (⟨S32x512x64x64, .f32⟩ : BufTy).Contents (Elt F) → (⟨S_, .f32⟩ : BufTy).Contents (Elt F) → (⟨S32x512, .f32⟩ : BufTy).Contents (Elt F)),
    nullary main_cst_0 (constant S_ .f32 0x45800000#32),
    unary main_cst_0 main_v1 (broadcastInDim S32x512 ![] bcast_S_S32x512 : (⟨S_, .f32⟩ : BufTy).Contents (Elt F) → (⟨S32x512, .f32⟩ : BufTy).Contents (Elt F)),
    binary main_v0 main_v1 main_v2 (Host.divf : (⟨S32x512, .f32⟩ : BufTy).Contents (Elt F) → (⟨S32x512, .f32⟩ : BufTy).Contents (Elt F) → (⟨S32x512, .f32⟩ : BufTy).Contents (Elt F)),
    nullary main_c (constantI S_ 32 1#32),
    TRef.nullary main_call0_call0.cst (constant S_ .f32 0x00000000#32),
    TRef.binary (.of main_arg0) main_call0_call0.cst main_call0_call0.v0 (fun x v => Host.reduceAdd x v reducesTo_S32x512x64x64_S32x512_d2_3 h_S_),
    TRef.unary main_call0_call0.v0 main_call0_call0.v1 (broadcastInDim S32x512x1x1 ![0, 1] bcast_S32x512_S32x512x1x1_0_1),
    TRef.nullary main_call0_call0.cst_0 (constant S_ .f32 0x45800000#32),
    TRef.unary main_call0_call0.cst_0 main_call0_call0.v2 (broadcastInDim S32x512x1x1 ![] bcast_S_S32x512x1x1),
    TRef.binary main_call0_call0.v1 main_call0_call0.v2 main_call0_call0.v3 Host.divf,
    TRef.unary main_call0_call0.v3 main_call0_call0.v4 (broadcastInDim S32x512x64x64 ![0, 1, 2, 3] bcast_S32x512x1x1_S32x512x64x64_0_1_2_3),
    TRef.binary (.of main_arg0) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x45800000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S32x512x64x64_S32x512_d2_3 h_S_),
    TRef.unary main_call0_call0.v8 main_call0_call0.v10 (broadcastInDim S32x512 ![] bcast_S_S32x512),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S32x512 ![] bcast_S_S32x512),
    TRef.ternary main_call0_call0.v12 main_call0_call0.v11 main_call0_call0_call0.v1 main_call0_call0_call0.v2 (fun p a b => select (broadcastInDim S32x512 ![] bcast_S_S32x512 p) a b),
    TRef.unary main_call0_call0_call0.v2 main_call0.v1 Host.sqrt,
    binary main_v2 main_v3 main_v4 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)) ]

-- thirty binds re-associated under three unfolded calls
set_option maxRecDepth 1024 in
/-- @main is that straight line: the three functions' definitions unfolded at their calls and the records at their
    fields, both sides are one chain of host steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..⟩

/-- On the device, for any float values, from any memory with zero counters: every weakly fair execution of @main
    terminates with the result buffer at the concatenation of the mean and the standard deviation of the argument's
    launch contents, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = concatenate S32x1024 1 [⟨S32x512, refMean (m ((c.tc : Thread nD τ).loc main_arg0))⟩, ⟨S32x512, refStd (m ((c.tc : Thread nD τ).loc main_arg0))⟩] concatenates_S32x512_S32x512_S32x1024_d1
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's two composed terms, read at a channel, are the two-pass forms of the specification.

  At the ideal instance every operation is the exact one on the extended reals, so each is read at an index by
  unfolding: a quotient, a difference, a product, a selection or a root of arrays is that operation of the entries;
  a rank-0 value broadcast to any shape reads the value; a [32, 512] array broadcast to [32, 512, 1, 1] and then to
  [32, 512, 64, 64] reads, at `(b, c, h, w)`, its entry `(b, c)`; and an add-reduction over the two trailing axes
  from an initial value reads, at `(b, c)`, that value plus the sum over the 64 × 64 positions of the channel. No
  finiteness is needed: nothing is rearranged.
-/
import proofs.«110391_j13494787244486_1_alg».proof.Proof.RefRun
import proofs.«110391_j13494787244486_1_alg».proof.Proof.Spec
import proofs.«110391_j13494787244486_1_alg».proof.Proof.LibSum23
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The parts of the two terms, named

The two composed terms are long; their parts are named here so that each can be read at an index on its own. The
composed terms are these parts put together, by unfolding. -/

/-- The channel sums: the input reduced by addition over its two trailing axes, from the zero word. -/
private abbrev chanSum (x : FVec Ideal S32x512x64x64 .f32) : FVec Ideal S32x512 .f32 :=
  Host.reduceAdd x (constant S_ .f32 0x00000000#32) reducesTo_S32x512x64x64_S32x512_d2_3 h_S_

/-- The divisor of the unbiased variance, a rank-0 value: the word of 4096 less the integer 1 converted. -/
private abbrev cnt : FVec Ideal S_ .f32 :=
  subf (constant S_ .f32 0x45800000#32) (sitofp .f32 (constantI S_ 32 1#32))

/-- The mean kept with two unit trailing axes. -/
private abbrev mu4 (x : FVec Ideal S32x512x64x64 .f32) : FVec Ideal S32x512x1x1 .f32 :=
  Host.divf (broadcastInDim S32x512x1x1 ![0, 1] bcast_S32x512_S32x512x1x1_0_1 (chanSum x))
    (broadcastInDim S32x512x1x1 ![] bcast_S_S32x512x1x1 (constant S_ .f32 0x45800000#32))

/-- The deviations from the mean. -/
private abbrev dev (x : FVec Ideal S32x512x64x64 .f32) : FVec Ideal S32x512x64x64 .f32 :=
  subf x (broadcastInDim S32x512x64x64 ![0, 1, 2, 3] bcast_S32x512x1x1_S32x512x64x64_0_1_2_3 (mu4 x))

/-- The variance. -/
private abbrev var (x : FVec Ideal S32x512x64x64 .f32) : FVec Ideal S32x512 .f32 :=
  Host.divf (Host.reduceAdd (mulf (dev x) (dev x)) (constant S_ .f32 0x00000000#32) reducesTo_S32x512x64x64_S32x512_d2_3 h_S_)
    (broadcastInDim S32x512 ![] bcast_S_S32x512 cnt)

private theorem refMean_eq (x : FVec Ideal S32x512x64x64 .f32) :
    RefRun.refMean (F := Ideal) x
      = Host.divf (chanSum x) (broadcastInDim S32x512 ![] bcast_S_S32x512 (constant S_ .f32 0x45800000#32)) := rfl

private theorem refStd_eq (x : FVec Ideal S32x512x64x64 .f32) :
    RefRun.refStd (F := Ideal) x
      = Host.sqrt (select (broadcastInDim S32x512 ![] bcast_S_S32x512 (cmpf (F := Ideal) .ogt cnt (constant S_ .f32 0x00000000#32)))
          (var x) (broadcastInDim S32x512 ![] bcast_S_S32x512 (id (constant S_ .f32 0x7FC00000#32)))) := rfl

/-! ## Each part read at an index -/

/-- The channel sum at `(b, c)`: the zero word plus the sum over the 64 × 64 positions. -/
private theorem chanSum_at (x : FVec Ideal S32x512x64x64 .f32) (b : Fin 32) (c : Fin 512) :
    chanSum x (ix2 b c) = Ideal.ofBits .f32 0x00000000#32 + Cert.Spec.rowSum x b c :=
  Idealize.ShloMosaic.Sum23.hostReduceAdd23_apply (B := 32) (C := 512) (H := 64) (W := 64) x _ _ _ b c

/-- A [32, 512] array broadcast to [32, 512, 1, 1] along its own two axes reads, at `(b, c, 0, 0)`, its entry `(b, c)`. -/
private theorem bcast2_at (y : FVec Ideal S32x512 .f32) (b : Fin 32) (c : Fin 512) :
    broadcastInDim S32x512x1x1 ![0, 1] bcast_S32x512_S32x512x1x1_0_1 y (ix4 b c (0 : Fin 1) (0 : Fin 1)) = y (ix2 b c) :=
  broadcastInDim_apply _ _ y _ (ix2 b c) (fun a => match a with | ⟨0, _⟩ => rfl | ⟨1, _⟩ => rfl)

/-- A [32, 512, 1, 1] array broadcast to [32, 512, 64, 64] reads, at `(b, c, h, w)`, its entry `(b, c, 0, 0)`: the two
    unit axes are read at coordinate zero. -/
private theorem bcast4_at (y : FVec Ideal S32x512x1x1 .f32) (b : Fin 32) (c : Fin 512) (h w : Fin 64) :
    broadcastInDim S32x512x64x64 ![0, 1, 2, 3] bcast_S32x512x1x1_S32x512x64x64_0_1_2_3 y (ix4 b c h w)
      = y (ix4 b c (0 : Fin 1) (0 : Fin 1)) :=
  broadcastInDim_apply _ _ y _ (ix4 b c (0 : Fin 1) (0 : Fin 1))
    (fun a => match a with | ⟨0, _⟩ => rfl | ⟨1, _⟩ => rfl | ⟨2, _⟩ => rfl | ⟨3, _⟩ => rfl)

/-- The mean with unit axes at `(b, c, 0, 0)` is the two-pass mean of channel `(b, c)`. -/
private theorem mu4_at (x : FVec Ideal S32x512x64x64 .f32) (b : Fin 32) (c : Fin 512) :
    mu4 x (ix4 b c (0 : Fin 1) (0 : Fin 1)) = Cert.Spec.refMeanAt x b c :=
  congrArg₂ Ideal.div ((bcast2_at _ b c).trans (chanSum_at x b c)) (broadcastInDim_scalar_apply _ _ _)

/-- A deviation at `(b, c, h, w)`: the entry less the channel's mean. -/
private theorem dev_at (x : FVec Ideal S32x512x64x64 .f32) (b : Fin 32) (c : Fin 512) (h w : Fin 64) :
    dev x (ix4 b c h w) = x (ix4 b c h w) - Cert.Spec.refMeanAt x b c :=
  congrArg (x (ix4 b c h w) - ·) ((bcast4_at _ b c h w).trans (mu4_at x b c))

/-- The divisor's one entry. -/
private theorem cnt_at : cnt ix0 = Cert.Spec.refCount := rfl

/-- The variance at `(b, c)`: the squared deviations summed from the zero word, over the divisor. -/
private theorem var_at (x : FVec Ideal S32x512x64x64 .f32) (b : Fin 32) (c : Fin 512) :
    var x (ix2 b c) = Cert.Spec.refVarAt x b c :=
  congrArg₂ Ideal.div
    ((Idealize.ShloMosaic.Sum23.hostReduceAdd23_apply (B := 32) (C := 512) (H := 64) (W := 64) (mulf (dev x) (dev x)) _ _ _ b c).trans
      (congrArg (Ideal.ofBits .f32 0x00000000#32 + ·)
        (Finset.sum_congr rfl fun p _ => congrArg₂ (· * ·) (dev_at x b c p.1 p.2) (dev_at x b c p.1 p.2))))
    ((broadcastInDim_scalar_apply _ _ _).trans cnt_at)

/-! ## The two results -/

/-- The mean at `(b, c)` is the two-pass mean of the specification. -/
theorem refMean_at (x : FVec Ideal S32x512x64x64 .f32) (b : Fin 32) (c : Fin 512) :
    RefRun.refMean (F := Ideal) x (ix2 b c) = Cert.Spec.refMeanAt x b c := by
  rw [refMean_eq]
  exact congrArg₂ Ideal.div (chanSum_at x b c) (broadcastInDim_scalar_apply _ _ _)

/-- The standard deviation at `(b, c)` is the two-pass standard deviation of the specification: the test, the
    variance and the quiet-NaN word are each a scalar or an array read at the index, under the selection and the root. -/
theorem refStd_at (x : FVec Ideal S32x512x64x64 .f32) (b : Fin 32) (c : Fin 512) :
    RefRun.refStd (F := Ideal) x (ix2 b c) = Cert.Spec.refStdAt x b c := by
  rw [refStd_eq]
  have hc : broadcastInDim S32x512 ![] bcast_S_S32x512 (cmpf (F := Ideal) .ogt cnt (constant S_ .f32 0x00000000#32)) (ix2 b c)
      = FloatOps.cmpf (F := Ideal) (φ := .f32) .ogt Cert.Spec.refCount (Ideal.ofBits .f32 0x00000000#32) :=
    broadcastInDim_scalar_apply _ _ _
  have hn : broadcastInDim S32x512 ![] bcast_S_S32x512 (id (constant (F := Ideal) S_ .f32 0x7FC00000#32)) (ix2 b c)
      = Ideal.ofBits .f32 0x7FC00000#32 :=
    broadcastInDim_scalar_apply _ _ _
  show Ideal.sqrt (Scalar.select
      (broadcastInDim S32x512 ![] bcast_S_S32x512 (cmpf (F := Ideal) .ogt cnt (constant S_ .f32 0x00000000#32)) (ix2 b c))
      (var x (ix2 b c))
      (broadcastInDim S32x512 ![] bcast_S_S32x512 (id (constant (F := Ideal) S_ .f32 0x7FC00000#32)) (ix2 b c))) = _
  rw [hc, hn, var_at]
  rfl

end Cert.ReferenceIdeal.RefValue

end
-- ==== Proof.AlgebraReal.lean ====
/-
  The real-number identity behind the agreement of the one-pass and the two-pass variance.

  For finitely many reals `r i`, with `s = ∑ r i`, `q = ∑ (r i)²` and `n` the number of terms,
  `∑ (r i - s/n)² = q - s²/n`: expand the square, sum term by term, and use `∑ 1 = n`. The left side is a sum of
  squares, so both sides are nonnegative.
-/
import Mathlib.Algebra.BigOperators.Ring.Finset
import Mathlib.Algebra.Order.BigOperators.Ring.Finset
import Mathlib.Data.Real.Basic
import Mathlib.Data.Fintype.BigOperators
import Mathlib.Tactic.Ring
import Mathlib.Tactic.FieldSimp
import Mathlib.Tactic.Linarith
import Mathlib.Tactic.NormNum

open scoped BigOperators

namespace Cert.AlgebraReal

variable {ι : Type*} [Fintype ι]

/-- `∑ (r i - s·(1/n))² = q - s·s·(1/n)` where `n ≠ 0` is the number of terms: the squared deviations from the mean
    sum to the sum of squares less the square of the sum over `n`. The mean is written `s * (1 / n)`, the form a
    division by a real constant takes on the extended reals. -/
theorem sum_sq_dev (r : ι → ℝ) (n : ℝ) (hn : (Fintype.card ι : ℝ) = n) (hn0 : n ≠ 0) :
    ∑ i, (r i - (∑ j, r j) * (1 / n)) * (r i - (∑ j, r j) * (1 / n))
      = (∑ i, r i * r i) - (∑ i, r i) * (∑ i, r i) * (1 / n) := by
  set s : ℝ := ∑ j, r j with hs
  -- expand one square: (r - μ)² = r² - 2μ·r + μ²
  have h1 : ∀ i, (r i - s * (1 / n)) * (r i - s * (1 / n))
      = r i * r i - (2 * (s * (1 / n))) * r i + (s * (1 / n)) * (s * (1 / n)) := fun i => by ring
  -- sum the three parts: ∑ r² - 2μ·∑ r + n·μ²
  simp only [h1, Finset.sum_add_distrib, Finset.sum_sub_distrib, ← Finset.mul_sum, Finset.sum_const,
    Finset.card_univ, nsmul_eq_mul, hn, ← hs]
  field_simp
  ring

/-- A sum of squares is nonnegative, so the one-pass numerator `q - s·s·(1/n)` is. -/
theorem one_pass_num_nonneg (r : ι → ℝ) (n : ℝ) (hn : (Fintype.card ι : ℝ) = n) (hn0 : n ≠ 0) :
    0 ≤ (∑ i, r i * r i) - (∑ i, r i) * (∑ i, r i) * (1 / n) := by
  rw [← sum_sq_dev r n hn hn0]
  exact Finset.sum_nonneg fun i _ => mul_self_nonneg _

end Cert.AlgebraReal
-- ==== Proof.Algebra.lean ====
/-
  The two-pass mean and standard deviation equal the one-pass ones, on the extended reals.

  The constant words are evaluated first: the zero word is `0`, the divisors are the reals `4096` and `4095`, and the
  reference's divisor `4096 - 1` is `4095`, which is positive, so its guard takes the variance and never reads the
  quiet-NaN word. The means differ only by `0 + s = s`. For the standard deviations every element is a real, so each
  side is a real computed exactly: a sum of coerced reals is the coerced sum, a division by a nonzero real constant is
  the product with its reciprocal, and the real identity `∑ (r - s/n)² = q - s²/n ≥ 0` (Proof/AlgebraReal.lean, with
  `n = 4096` the number of spatial positions) makes the two radicands the same real and `max · 0` the identity.
-/
import proofs.«110391_j13494787244486_1_alg».proof.Proof.Spec
import proofs.«110391_j13494787244486_1_alg».proof.Proof.AlgebraReal
import Idealize.ShloMosaic.PureOps.Ideal.Laws
import Idealize.ShloMosaic.Lib.ValueIdx
import Mathlib.Data.EReal.Operations
import Mathlib.Tactic.NormNum
import Mathlib.Tactic.Linarith

noncomputable section

open scoped BigOperators

namespace Cert.Algebra

open Cert.Spec Idealize.ShloMosaic Idealize.ShloMosaic.ValueIdx

/-! ## The constant words -/

/-- The word `0x45800000` denotes `2¹² = 4096`. -/
theorem ofBits_4096 : Ideal.ofBits .f32 0x45800000#32 = ((4096 : ℝ) : EReal) := by
  simp [Ideal.ofBits, Ideal.ieee, -EReal.coe_mul]; norm_num

/-- The word `0x457FF000` denotes `4095`. -/
theorem ofBits_4095 : Ideal.ofBits .f32 0x457FF000#32 = ((4095 : ℝ) : EReal) := by
  simp [Ideal.ofBits, Ideal.ieee, -EReal.coe_mul]; norm_num

/-- The integer `1`, converted, is the real `1`. -/
theorem sitofp_one : FloatOps.sitofp (F := Ideal) .f32 (1#32 : BitVec 32) = ((1 : ℝ) : EReal) := by
  show ((((1#32 : BitVec 32).toInt : ℤ) : ℝ) : EReal) = ((1 : ℝ) : EReal)
  have h : (1#32 : BitVec 32).toInt = 1 := by decide
  rw [h]; norm_num

/-- The reference's divisor `4096 - 1` is `4095`. -/
theorem refCount_eq : refCount = ((4095 : ℝ) : EReal) := by
  unfold refCount
  rw [ofBits_4096, sitofp_one, ← EReal.coe_sub]
  norm_num

/-- The divisor is positive, so the guard's bit is `1`. -/
theorem guard_eq_one :
    FloatOps.cmpf (F := Ideal) (φ := .f32) .ogt refCount (Ideal.ofBits .f32 0x00000000#32) = 1#1 := by
  rw [Ideal.cmpf_def, refCount_eq, Ideal.ofBits_zero_f32]
  have h : (0 : EReal) < ((4095 : ℝ) : EReal) := EReal.coe_pos.mpr (by norm_num)
  simp [Ideal.cmp, h]

/-! ## Between the extended reals and the reals -/

/-- A finite sum of coerced reals is the coerced sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- Division of a coerced real by the word `4096` is the product with `1/4096`. -/
theorem div_4096 (a : ℝ) :
    Ideal.div (a : EReal) (Ideal.ofBits .f32 0x45800000#32) = ((a * (1 / 4096) : ℝ) : EReal) := by
  rw [ofBits_4096, Ideal.div_coe (by norm_num), ← EReal.coe_mul]

/-- Division of a coerced real by the real `4095` is the product with `1/4095`. -/
theorem div_4095 (a : ℝ) :
    Ideal.div (a : EReal) ((4095 : ℝ) : EReal) = ((a * (1 / 4095) : ℝ) : EReal) := by
  rw [Ideal.div_coe (by norm_num), ← EReal.coe_mul]

/-- The root of a coerced nonnegative real is the coerced root. -/
theorem sqrt_coe_nonneg {a : ℝ} (h : 0 ≤ a) : Ideal.sqrt (a : EReal) = ((Real.sqrt a : ℝ) : EReal) := by
  rw [Ideal.sqrt_coe, if_neg (not_lt.mpr h)]

/-! ## The two forms over an abstract finite index set of 4096 points -/

section Abstract

variable {ι : Type*} [Fintype ι]

/-- The two-pass mean of coerced reals: `(0 + s) / 4096 = s·(1/4096)`. -/
theorem refMean_coe (r : ι → ℝ) :
    Ideal.div (Ideal.ofBits .f32 0x00000000#32 + ∑ i, ((r i : ℝ) : EReal)) (Ideal.ofBits .f32 0x45800000#32)
      = (((∑ i, r i) * (1 / 4096) : ℝ) : EReal) := by
  rw [Ideal.ofBits_zero_f32, zero_add, coe_sum, div_4096]

/-- The two-pass variance of coerced reals is the real `(∑ (r - μ)²)·(1/4095)` with `μ = s·(1/4096)`. -/
theorem refVar_coe (r : ι → ℝ) :
    Ideal.div (Ideal.ofBits .f32 0x00000000#32
        + ∑ i, (((r i : ℝ) : EReal)
              - Ideal.div (Ideal.ofBits .f32 0x00000000#32 + ∑ j, ((r j : ℝ) : EReal)) (Ideal.ofBits .f32 0x45800000#32))
            * (((r i : ℝ) : EReal)
              - Ideal.div (Ideal.ofBits .f32 0x00000000#32 + ∑ j, ((r j : ℝ) : EReal)) (Ideal.ofBits .f32 0x45800000#32)))
      refCount
      = (((∑ i, (r i - (∑ j, r j) * (1 / 4096)) * (r i - (∑ j, r j) * (1 / 4096))) * (1 / 4095) : ℝ) : EReal) := by
  rw [refMean_coe, refCount_eq, Ideal.ofBits_zero_f32, zero_add]
  simp only [← EReal.coe_sub, ← EReal.coe_mul]
  rw [coe_sum, div_4095]

/-- The one-pass radicand of coerced reals is the real `(q - s·s·(1/4096))·(1/4095)`. -/
theorem var_coe (r : ι → ℝ) :
    Ideal.div ((∑ i, ((r i : ℝ) : EReal) * ((r i : ℝ) : EReal))
        - Ideal.div ((∑ i, ((r i : ℝ) : EReal)) * (∑ i, ((r i : ℝ) : EReal))) (Ideal.ofBits .f32 0x45800000#32))
      (Ideal.ofBits .f32 0x457FF000#32)
      = ((((∑ i, r i * r i) - (∑ i, r i) * (∑ i, r i) * (1 / 4096)) * (1 / 4095) : ℝ) : EReal) := by
  simp only [← EReal.coe_mul]
  rw [coe_sum, coe_sum, ← EReal.coe_mul, div_4096, ← EReal.coe_sub, ofBits_4095, div_4095]

/-- The two standard deviations agree: both radicands are the same nonnegative real. -/
theorem std_eq (hcard : (Fintype.card ι : ℝ) = 4096) (r : ι → ℝ) :
    Ideal.sqrt (Scalar.select
        (FloatOps.cmpf (F := Ideal) (φ := .f32) .ogt refCount (Ideal.ofBits .f32 0x00000000#32))
        (Ideal.div (Ideal.ofBits .f32 0x00000000#32
          + ∑ i, (((r i : ℝ) : EReal)
                - Ideal.div (Ideal.ofBits .f32 0x00000000#32 + ∑ j, ((r j : ℝ) : EReal)) (Ideal.ofBits .f32 0x45800000#32))
              * (((r i : ℝ) : EReal)
                - Ideal.div (Ideal.ofBits .f32 0x00000000#32 + ∑ j, ((r j : ℝ) : EReal)) (Ideal.ofBits .f32 0x45800000#32)))
          refCount)
        (Ideal.ofBits .f32 0x7FC00000#32))
      = Ideal.sqrt (max
          (Ideal.div ((∑ i, ((r i : ℝ) : EReal) * ((r i : ℝ) : EReal))
              - Ideal.div ((∑ i, ((r i : ℝ) : EReal)) * (∑ i, ((r i : ℝ) : EReal))) (Ideal.ofBits .f32 0x45800000#32))
            (Ideal.ofBits .f32 0x457FF000#32))
          (Ideal.ofBits .f32 0x00000000#32)) := by
  have hn0 : (4096 : ℝ) ≠ 0 := by norm_num
  -- the one-pass radicand is nonnegative: a sum of squares over a positive divisor
  have hnum := Cert.AlgebraReal.one_pass_num_nonneg r 4096 hcard hn0
  have hrad : 0 ≤ ((∑ i, r i * r i) - (∑ i, r i) * (∑ i, r i) * (1 / 4096)) * (1 / 4095) :=
    mul_nonneg hnum (by norm_num)
  rw [guard_eq_one, select_one, refVar_coe, var_coe, Ideal.ofBits_zero_f32,
    max_eq_left (EReal.coe_nonneg.mpr hrad), Cert.AlgebraReal.sum_sq_dev r 4096 hcard hn0]

end Abstract

/-! ## The two theorems -/

/-- The two-pass mean is the one-pass mean: `0 + s = s`. -/
theorem refMeanAt_eq (x : Cert.Spec.SX.Idx → EReal) (b : Fin 32) (c : Fin 512) :
    Cert.Spec.refMeanAt x b c = Cert.Spec.meanAt x b c := by
  unfold Cert.Spec.refMeanAt Cert.Spec.meanAt
  rw [Ideal.ofBits_zero_f32, zero_add]

/-- On finite inputs the two-pass standard deviation is the one-pass one. -/
theorem refStdAt_eq (x : Cert.Spec.SX.Idx → EReal) (hfin : ∀ i, ∃ r : ℝ, x i = (r : EReal)) (b : Fin 32) (c : Fin 512) :
    Cert.Spec.refStdAt x b c = Cert.Spec.stdAt x b c := by
  choose r hr using hfin
  unfold Cert.Spec.refStdAt Cert.Spec.refVarAt Cert.Spec.refMeanAt Cert.Spec.stdAt Cert.Spec.rowSum Cert.Spec.rowSumSq
  simp only [hr]
  exact std_eq (ι := Fin 64 × Fin 64) (by rw [Fintype.card_prod, Fintype.card_fin]; norm_num)
    (fun p => r (ix4 b c p.1 p.2))

end Cert.Algebra

end
-- ==== Proof.Finite.lean ====
/-
  The precondition read back: every element of an admitted input is a real number.

  The predicate is `all (|x| < +∞)`: the elementwise comparison of `|x|` with the word of `+∞`, reduced by `and` over every
  axis into one bit. If that bit is `1` then the comparison is `1` at every element, that is `max a (-a) < ⊤` on the
  extended reals for every element `a`. This excludes `a = ⊤` (then `max a (-a) = ⊤`) and `a = ⊥` (then `-a = ⊤`); what is left
  is a real.
-/
import proofs.«110391_j13494787244486_1_alg».proof.Proof.Gen.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

namespace Cert.Finite

open Idealize.ShloMosaic Idealize.ShloMosaic.ValueIdx

/-- The f32 word `0x7F800000` (exponent all ones, fraction zero, sign clear) is `+∞`. -/
theorem ofBits_inf_f32 : Ideal.ofBits .f32 0x7F800000#32 = ⊤ := by simp [Ideal.ofBits, Ideal.ieee]

/-- An extended real whose absolute value `max a (-a)` is below `⊤` is a real. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- A comparison `a < b` on the extended reals that came out `1` holds. -/
theorem lt_of_cmp_olt {a b : EReal} (h : Ideal.cmp .olt a b = 1#1) : a < b := by
  by_contra hn
  simp [Ideal.cmp, hn] at h

/-- The rank-0 shape has one index. -/
instance : Subsingleton Cert.Pre_finite_inputs.S_.Idx := ⟨fun _ _ => funext fun d => d.elim0⟩

/-- Under the precondition every element of the input is a real. -/
theorem finite_of_pre (x : FVec Ideal Cert.Pre_finite_inputs.S32x512x64x64 .f32)
    (h : Cert.Pre_finite_inputs.fn (F := Ideal) x = fun _ => 1#1) : ∀ i, ∃ r : ℝ, x i = (r : EReal) := by
  intro i
  -- the reduction by `and` is `1` at the one result index, so the comparison is `1` at `i`
  have h0 := congrFun h ix0
  dsimp only [Cert.Pre_finite_inputs.fn] at h0
  have hi := Host.reduce_andi_all _ _ _ _ _ h0 i
  -- at `i` the comparison is of `|x i| = max (x i) (-(x i))` with the broadcast word of `+∞`
  rw [cmpf_apply, broadcastInDim_scalar_apply, constant_apply, ofBits_inf_f32] at hi
  exact real_of_abs_lt_top (x i) (lt_of_cmp_olt hi)

end Cert.Finite

end
-- ==== Proof.lean ====
/-
  Per-(batch, channel) mean and unbiased standard deviation over the 64 × 64 spatial positions of an f32 array
  [32, 512, 64, 64], concatenated into [32, 1024]: a one-pass kernel against a two-pass reference.

  The kernel walks the rows in four blocks of sixteen and keeps two running sums per channel, `s = ∑ x` and
  `q = ∑ x²`, reset at the first block; at the last block it stores `s / 4096` and `√(max ((q - s·s/4096) / 4095) 0)`.
  The reference computes `μ = (0 + ∑ x) / 4096` and `√((0 + ∑ (x - μ)²) / (4096 - 1))`, the second guarded by a test
  that the divisor is positive. On the extended reals the kernel's arrays are exactly the one-pass formulas of the
  channel's sums over all positions (associativity and commutativity of the sum only). For finite inputs
  `∑ (x - s/n)² = q - s²/n`, which is a sum of squares and so nonnegative: the maximum with zero is the identity and
  the two standard deviations agree; the means differ only by the zero the reference's sum starts from. Both programs
  end with the same concatenation, so equal pieces give equal results.

  The frames of the two kernel programs are the generated ones; the reference's frame is its run with the result
  dropped; the idealization changed no operation.
-/
import proofs.«110391_j13494787244486_1_alg».proof.Defs
import proofs.«110391_j13494787244486_1_alg».proof.Proof.Gen.Kernel
import proofs.«110391_j13494787244486_1_alg».proof.Proof.Gen.Kernel.Frame
import proofs.«110391_j13494787244486_1_alg».proof.Proof.Gen.KernelIdeal
import proofs.«110391_j13494787244486_1_alg».proof.Proof.Gen.KernelIdeal.Frame
import proofs.«110391_j13494787244486_1_alg».proof.Proof.Gen.ReferenceIdeal
import proofs.«110391_j13494787244486_1_alg».proof.Proof.Gen.Pre_finite_inputs
import proofs.«110391_j13494787244486_1_alg».proof.Proof.KRun
import proofs.«110391_j13494787244486_1_alg».proof.Proof.RefValue
import proofs.«110391_j13494787244486_1_alg».proof.Proof.Algebra
import proofs.«110391_j13494787244486_1_alg».proof.Proof.Finite
import Idealize.ShloMosaic.Adequacy
import Idealize.ShloMosaic.Init

noncomputable section

namespace Cert.Proof

open Idealize.ShloMosaic Idealize.SL.Sem Idealize.ShloMosaic.ValueIdx

/-- The reference's mean array is the one-pass mean: the sum it divides starts from zero. -/
theorem ref_mean_eq (x : FVec Ideal Cert.ReferenceIdeal.S32x512x64x64 .f32) :
    Cert.ReferenceIdeal.RefRun.refMean (F := Ideal) x = Cert.Spec.meanArr x := by
  funext j
  obtain ⟨b, c, rfl⟩ : ∃ (b : Fin 32) (c : Fin 512), j = ix2 b c := ⟨j 0, j 1, eq_ix2 j⟩
  rw [Cert.ReferenceIdeal.RefValue.refMean_at, Cert.Algebra.refMeanAt_eq]
  rfl

/-- On finite inputs the reference's two-pass standard deviation is the one-pass one. -/
theorem ref_std_eq (x : FVec Ideal Cert.ReferenceIdeal.S32x512x64x64 .f32) (hfin : ∀ i, ∃ r : ℝ, x i = (r : EReal)) :
    Cert.ReferenceIdeal.RefRun.refStd (F := Ideal) x = Cert.Spec.stdArr x := by
  funext j
  obtain ⟨b, c, rfl⟩ : ∃ (b : Fin 32) (c : Fin 512), j = ix2 b c := ⟨j 0, j 1, eq_ix2 j⟩
  rw [Cert.ReferenceIdeal.RefValue.refStd_at, Cert.Algebra.refStdAt_eq x hfin]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both runs end at the concatenation of the one-pass means and standard deviations of the common input. -/
theorem algebraic : Cert.algebraic_KernelIdeal_ReferenceIdeal := by
  intro m ρ m' ρ' hpre hagree
  refine ⟨fun c => Cert.KernelIdeal.KVal.outOf (m ((c.tc : Thread Cert.KernelIdeal.nD Cert.KernelIdeal.τ).loc Cert.KernelIdeal.main_arg0)),
    Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [hagree c, ref_mean_eq, ref_std_eq _ (Cert.Finite.finite_of_pre _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
